-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S1x1x4096 : Shape := ⟨3, ![1, 1, 4096]⟩
abbrev S4096x1024 : Shape := ⟨2, ![4096, 1024]⟩
abbrev S4096 : Shape := ⟨1, ![4096]⟩
abbrev S16384x4096 : Shape := ⟨2, ![16384, 4096]⟩
abbrev S16384 : Shape := ⟨1, ![16384]⟩
abbrev S1024x4096 : Shape := ⟨2, ![1024, 4096]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1x4096 : S_.BroadcastsInDim S1x1x4096 (![] : Fin 0 → Fin S1x1x4096.rank)
  reducesTo_S1x1x4096_S_d0_1_2 : S1x1x4096.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S16384 .f32) (main_arg8 : FVec F S16384 .f32) (main_arg9 : FVec F S1024x4096 .f32) (main_arg10 : FVec F S1024 .f32) (main_v33 : IVec S_ 1) : IVec S_ 1 :=
  let main_v34 : FVec F S16384 .f32 := Host.absf main_arg7
  let main_cst_12 : FVec F S_ .f32 := constant S_ .f32 0x7F800000#32
  let main_v35 : FVec F S16384 .f32 := broadcastInDim S16384 ![] bcast_S_S16384 main_cst_12
  let main_v36 : IVec S16384 1 := cmpf .olt main_v34 main_v35
  let main_c_13 : IVec S_ 1 := constantI S_ 1 1#1
  let main_v37 : IVec S_ 1 := (fun x v => Host.reduce IntOp.andi x v reducesTo_S16384_S_d0 h_S_) main_v36 main_c_13
  let main_v38 : IVec S_ 1 := andi main_v33 main_v37
  let main_v39 : FVec F S16384 .f32 := Host.absf main_arg8
  let main_cst_14 : FVec F S_ .f32 := constant S_ .f32 0x7F800000#32
  let main_v40 : FVec F S16384 .f32 := broadcastInDim S16384 ![] bcast_S_S16384 main_cst_14
  let main_v41 : IVec S16384 1 := cmpf .olt main_v39 main_v40
  let main_c_15 : IVec S_ 1 := constantI S_ 1 1#1
  let main_v42 : IVec S_ 1 := (fun x v => Host.reduce IntOp.andi x v reducesTo_S16384_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S4096 .f32) (main_arg5 : FVec F S16384x4096 .f32) (main_arg6 : FVec F S16384x4096 .f32) (main_arg7 : FVec F S16384 .f32) (main_arg8 : FVec F S16384 .f32) (main_arg9 : FVec F S1024x4096 .f32) (main_arg10 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S16384x4096 .f32 := Host.absf main_arg5
  let main_cst_8 : FVec F S_ .f32 := constant S_ .f32 0x7F800000#32
  let main_v25 : FVec F S16384x4096 .f32 := broadcastInDim S16384x4096 ![] bcast_S_S16384x4096 main_cst_8
  let main_v26 : IVec S16384x4096 1 := cmpf .olt main_v24 main_v25
  let main_c_9 : IVec S_ 1 := constantI S_ 1 1#1
  let main_v27 : IVec S_ 1 := (fun x v => Host.reduce IntOp.andi x v reducesTo_S16384x4096_S_d0_1 h_S_) main_v26 main_c_9
  let main_v28 : IVec S_ 1 := andi main_v23 main_v27
  let main_v29 : FVec F S16384x4096 .f32 := Host.absf main_arg6
  let main_cst_10 : FVec F S_ .f32 := constant S_ .f32 0x7F800000#32
  let main_v30 : FVec F S16384x4096 .f32 := broadcastInDim S16384x4096 ![] bcast_S_S16384x4096 main_cst_10
  let main_v31 : IVec S16384x4096 1 := cmpf .olt main_v29 main_v30
  let main_c_11 : IVec S_ 1 := constantI S_ 1 1#1
  let main_v32 : IVec S_ 1 := (fun x v => Host.reduce IntOp.andi x v reducesTo_S16384x4096_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1x1024 .f32) (main_arg1 : FVec F S1x1x4096 .f32) (main_arg2 : FVec F S1x1x4096 .f32) (main_arg3 : FVec F S4096x1024 .f32) (main_arg4 : FVec F S4096 .f32) (main_arg5 : FVec F S16384x4096 .f32) (main_arg6 : FVec F S16384x4096 .f32) (main_arg7 : FVec F S16384 .f32) (main_arg8 : FVec F S16384 .f32) (main_arg9 : FVec F S1024x4096 .f32) (main_arg10 : FVec F S1024 .f32) : IVec S_ 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1x4096 .f32 := Host.absf main_arg1
  let main_cst_0 : FVec F S_ .f32 := constant S_ .f32 0x7F800000#32
  let main_v5 : FVec F S1x1x4096 .f32 := broadcastInDim S1x1x4096 ![] bcast_S_S1x1x4096 main_cst_0
  let main_v6 : IVec S1x1x4096 1 := cmpf .olt main_v4 main_v5
  let main_c_1 : IVec S_ 1 := constantI S_ 1 1#1
  let main_v7 : IVec S_ 1 := (fun x v => Host.reduce IntOp.andi x v reducesTo_S1x1x4096_S_d0_1_2 h_S_) main_v6 main_c_1
  let main_v8 : IVec S_ 1 := andi main_v3 main_v7
  let main_v9 : FVec F S1x1x4096 .f32 := Host.absf main_arg2
  let main_cst_2 : FVec F S_ .f32 := constant S_ .f32 0x7F800000#32
  let main_v10 : FVec F S1x1x4096 .f32 := broadcastInDim S1x1x4096 ![] bcast_S_S1x1x4096 main_cst_2
  let main_v11 : IVec S1x1x4096 1 := cmpf .olt main_v9 main_v10
  let main_c_3 : IVec S_ 1 := constantI S_ 1 1#1
  let main_v12 : IVec S_ 1 := (fun x v => Host.reduce IntOp.andi x v reducesTo_S1x1x4096_S_d0_1_2 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_v13 main_v16
-- ==== Kernel.lean ====
abbrev S1x1024 : Shape := ⟨2, ![1, 1024]⟩
abbrev S1x1x4096 : Shape := ⟨3, ![1, 1, 4096]⟩
abbrev S4096x1024 : Shape := ⟨2, ![4096, 1024]⟩
abbrev S4096 : Shape := ⟨1, ![4096]⟩
abbrev S16384x4096 : Shape := ⟨2, ![16384, 4096]⟩
abbrev S16384 : Shape := ⟨1, ![16384]⟩
abbrev S1024x4096 : Shape := ⟨2, ![1024, 4096]⟩
abbrev S1024 : Shape := ⟨1, ![1024]⟩
abbrev S1x4096 : Shape := ⟨2, ![1, 4096]⟩
abbrev S1024x1024 : Shape := ⟨2, ![1024, 1024]⟩
abbrev S4x4096x4096 : Shape := ⟨3, ![4, 4096, 4096]⟩
abbrev S4x4096 : Shape := ⟨2, ![4, 4096]⟩
abbrev S1x128 : Shape := ⟨2, ![1, 128]⟩
abbrev S4x128x4096 : Shape := ⟨3, ![4, 128, 4096]⟩
abbrev S4x128 : Shape := ⟨2, ![4, 128]⟩
abbrev S1x128x4096 : Shape := ⟨3, ![1, 128, 4096]⟩
abbrev S128x4096 : Shape := ⟨2, ![128, 4096]⟩
abbrev S128 : Shape := ⟨1, ![128]⟩
abbrev S4096x128 : Shape := ⟨2, ![4096, 128]⟩
abbrev S256x4096 : Shape := ⟨2, ![256, 4096]⟩
abbrev S1x256 : Shape := ⟨2, ![1, 256]⟩
abbrev S4096x256 : Shape := ⟨2, ![4096, 256]⟩

abbrev nBuf : Space → Nat
  | .hbm => 25
  | .vmem => 30
  | .smem => 0
  | _ => 0

abbrev bufTy : (tb : Table) → Fin (tcTables nBuf tb) → BufTy
  | .hbm, ⟨0, _⟩ => ⟨S1x1024, .f32⟩
  | .hbm, ⟨1, _⟩ => ⟨S1x1x4096, .f32⟩
  | .hbm, ⟨2, _⟩ => ⟨S1x1x4096, .f32⟩
  | .hbm, ⟨3, _⟩ => ⟨S4096x1024, .f32⟩
  | .hbm, ⟨4, _⟩ => ⟨S4096, .f32⟩
  | .hbm, ⟨5, _⟩ => ⟨S16384x4096, .f32⟩
  | .hbm, ⟨6, _⟩ => ⟨S16384x4096, .f32⟩
  | .hbm, ⟨7, _⟩ => ⟨S16384, .f32⟩
  | .hbm, ⟨8, _⟩ => ⟨S16384, .f32⟩
  | .hbm, ⟨9, _⟩ => ⟨S1024x4096, .f32⟩
  | .hbm, ⟨10, _⟩ => ⟨S1024, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S4x4096x4096, .f32⟩
  | .hbm, ⟨16, _⟩ => ⟨S4x4096x4096, .f32⟩
  | .hbm, ⟨17, _⟩ => ⟨S4x4096, .f32⟩
  | .hbm, ⟨18, _⟩ => ⟨S4x4096, .f32⟩
  | .hbm, ⟨19, _⟩ => ⟨S1x4096, .f32⟩
  | .hbm, ⟨20, _⟩ => ⟨S1x4096, .f32⟩
  | .hbm, ⟨21, _⟩ => ⟨S1x1024, .f32⟩
  | .hbm, ⟨22, _⟩ => ⟨S1x1024, .f32⟩
  | .hbm, ⟨23, _⟩ => ⟨S1x1x4096, .f32⟩
  | .hbm, ⟨24, _⟩ => ⟨S1x1x4096, .f32⟩
  | .local _ .vmem, ⟨0, _⟩ => ⟨S1x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x4096, .f32⟩
  | .local _ .vmem, ⟨8, _⟩ => ⟨S1x4096, .f32⟩
  | .local _ .vmem, ⟨9, _⟩ => ⟨S1x128, .f32⟩
  | .local _ .vmem, ⟨10, _⟩ => ⟨S1x128, .f32⟩
  | .local _ .vmem, ⟨11, _⟩ => ⟨S4x128x4096, .f32⟩
  | .local _ .vmem, ⟨12, _⟩ => ⟨S4x128x4096, .f32⟩
  | .local _ .vmem, ⟨13, _⟩ => ⟨S4x128x4096, .f32⟩
  | .local _ .vmem, ⟨14, _⟩ => ⟨S4x128x4096, .f32⟩
  | .local _ .vmem, ⟨15, _⟩ => ⟨S4x128, .f32⟩
  | .local _ .vmem, ⟨16, _⟩ => ⟨S4x128, .f32⟩
  | .local _ .vmem, ⟨17, _⟩ => ⟨S4x128, .f32⟩
  | .local _ .vmem, ⟨18, _⟩ => ⟨S4x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x4096, .f32⟩
  | .local _ .vmem, ⟨24, _⟩ => ⟨S256x4096, .f32⟩
  | .local _ .vmem, ⟨25, _⟩ => ⟨S256x4096, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  shapeCasts_S1x1024_S1x1024 : S1x1024.ShapeCasts S1x1024
  shapeCasts_S1x1x4096_S1x4096 : S1x1x4096.ShapeCasts S1x4096
  shapeCasts_S16384x4096_S4x4096x4096 : S16384x4096.ShapeCasts S4x4096x4096
  shapeCasts_S16384_S4x4096 : S16384.ShapeCasts S4x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  inb_S4x128_S1x128_0_0 : ∀ a, (![0, 0] : Fin 2 → Nat) a + S1x128.size a ≤ S4x128.size a
  shapeCasts_S1x128_S128 : S1x128.ShapeCasts S128
  transposes_S128x4096_p1_0_S4096x128 : S128x4096.Transposes [1, 0] S4096x128
  shapeCasts_S128_S1x128 : S128.ShapeCasts S1x128
  inb_S4x128x4096_S1x128x4096_1_0_0 : ∀ a, (![1, 0, 0] : Fin 3 → Nat) a + S1x128x4096.size a ≤ S4x128x4096.size a
  inb_S4x128_S1x128_1_0 : ∀ a, (![1, 0] : Fin 2 → Nat) a + S1x128.size a ≤ S4x128.size a
  inb_S4x128x4096_S1x128x4096_2_0_0 : ∀ a, (![2, 0, 0] : Fin 3 → Nat) a + S1x128x4096.size a ≤ S4x128x4096.size a
  inb_S4x128_S1x128_2_0 : ∀ a, (![2, 0] : Fin 2 → Nat) a + S1x128.size a ≤ S4x128.size a
  inb_S4x128x4096_S1x128x4096_3_0_0 : ∀ a, (![3, 0, 0] : Fin 3 → Nat) a + S1x128x4096.size a ≤ S4x128x4096.size a
  inb_S4x128_S1x128_3_0 : ∀ a, (![3, 0] : Fin 2 → Nat) a + S1x128.size a ≤ S4x128.size a
  shapeCasts_S1024_S1x1024 : S1024.ShapeCasts S1x1024
  inb_S256x4096_S256x4096_0_0 : ∀ a, (![0, 0] : Fin 2 → Nat) a + S256x4096.size a ≤ S256x4096.size a
  h_S256x4096 : 0 < S256x4096.numel
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x4096_S1x1x4096 : S1x4096.ShapeCasts S1x1x4096
  dot_S1x1024_S1024x1024_S1x1024_1_0_0_1_n_n_wf : DotDims.WF S1x1024 S1024x1024 S1x1024 [1] [0] [0] [1] [] []
  dot_S1x4096_S4096x128_S1x128_1_0_0_1_n_n_wf : DotDims.WF S1x4096 S4096x128 S1x128 [1] [0] [0] [1] [] []
  dot_S1x4096_S4096x256_S1x256_1_0_0_1_n_n_wf : DotDims.WF S1x4096 S4096x256 S1x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x4096.size a
  hwx1_2 : ∀ i : grid1.Coords, EltTy.bits .f32 = 32 ∨ (Rect.block (s := S1x4096) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128x4096.size a ≤ S4x4096x4096.size a
  hwx1_3 : ∀ i : grid1.Coords, EltTy.bits .f32 = 32 ∨ (Rect.block (s := S4x4096x4096) S4x128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x128x4096.size a ≤ S4x4096x4096.size a
  hwx1_4 : ∀ i : grid1.Coords, EltTy.bits .f32 = 32 ∨ (Rect.block (s := S4x4096x4096) S4x128x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x128.size a ≤ S4x4096.size a
  hwx1_5 : ∀ i : grid1.Coords, EltTy.bits .f32 = 32 ∨ (Rect.block (s := S4x4096) S4x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4x128.size a ≤ S4x4096.size a
  hwx1_6 : ∀ i : grid1.Coords, EltTy.bits .f32 = 32 ∨ (Rect.block (s := S4x4096) S4x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x4096.size a
  hwx1_7 : ∀ i : grid1.Coords, EltTy.bits .f32 = 32 ∨ (Rect.block (s := S1x4096) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x4096.size a
  hwx1_8 : ∀ i : grid1.Coords, EltTy.bits .f32 = 32 ∨ (Rect.block (s := S1x4096) S1x128.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S1024x4096.size a
  hwx2_1 : ∀ i : grid2.Coords, EltTy.bits .f32 = 32 ∨ (Rect.block (s := S1024x4096) S256x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x1024.size a
  hwx2_2 : ∀ i : grid2.Coords, EltTy.bits .f32 = 32 ∨ (Rect.block (s := S1x1024) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x1024.size a
  hwx2_3 : ∀ i : grid2.Coords, EltTy.bits .f32 = 32 ∨ (Rect.block (s := S1x1024) S1x256.size (cc2_transform_3 i) (hinb2_3 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x4096_S4096x128_S1x128_1_0_0_1_n_n : DotDims S1x4096 S4096x128 S1x128 where
  lhsContracting := [1]
  rhsContracting := [0]
  lhsNonContracting := [0]
  rhsNonContracting := [1]
  lhsBatch := []
  rhsBatch := []
  wf := dot_S1x4096_S4096x128_S1x128_1_0_0_1_n_n_wf
def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf

abbrev win0_0 : Pipeline.Window sig grid0 :=
  Pipeline.Window.ofSpec (Memref.whole main_arg0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S4x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S4x128x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S4x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7) S4x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_0) S1x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v8_1) S1x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v8_0) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x1024 : Shape := ⟨2, ![1, 1024]⟩
abbrev S1x1x4096 : Shape := ⟨3, ![1, 1, 4096]⟩
abbrev S4096x1024 : Shape := ⟨2, ![4096, 1024]⟩
abbrev S4096 : Shape := ⟨1, ![4096]⟩
abbrev S16384x4096 : Shape := ⟨2, ![16384, 4096]⟩
abbrev S16384 : Shape := ⟨1, ![16384]⟩
abbrev S1024x4096 : Shape := ⟨2, ![1024, 4096]⟩
abbrev S1024 : Shape := ⟨1, ![1024]⟩
abbrev S1x4096 : Shape := ⟨2, ![1, 4096]⟩
abbrev S4096x16384 : Shape := ⟨2, ![4096, 16384]⟩
abbrev S1x16384 : Shape := ⟨2, ![1, 16384]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1x4096, .f32⟩
  | .hbm, ⟨2, _⟩ => ⟨S1x1x4096, .f32⟩
  | .hbm, ⟨3, _⟩ => ⟨S4096x1024, .f32⟩
  | .hbm, ⟨4, _⟩ => ⟨S4096, .f32⟩
  | .hbm, ⟨5, _⟩ => ⟨S16384x4096, .f32⟩
  | .hbm, ⟨6, _⟩ => ⟨S16384x4096, .f32⟩
  | .hbm, ⟨7, _⟩ => ⟨S16384, .f32⟩
  | .hbm, ⟨8, _⟩ => ⟨S16384, .f32⟩
  | .hbm, ⟨9, _⟩ => ⟨S1024x4096, .f32⟩
  | .hbm, ⟨10, _⟩ => ⟨S1024, .f32⟩
  | .hbm, ⟨11, _⟩ => ⟨S1024x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S4096x16384, .f32⟩
  | .hbm, ⟨18, _⟩ => ⟨S1x16384, .f32⟩
  | .hbm, ⟨19, _⟩ => ⟨S1x16384, .f32⟩
  | .hbm, ⟨20, _⟩ => ⟨S1x16384, .f32⟩
  | .hbm, ⟨21, _⟩ => ⟨S4096x16384, .f32⟩
  | .hbm, ⟨22, _⟩ => ⟨S1x16384, .f32⟩
  | .hbm, ⟨23, _⟩ => ⟨S1x16384, .f32⟩
  | .hbm, ⟨24, _⟩ => ⟨S1x16384, .f32⟩
  | .hbm, ⟨25, _⟩ => ⟨S1x16384, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S_, .f32⟩
  | .hbm, ⟨53, _⟩ => ⟨S1x4096, .f32⟩
  | .hbm, ⟨54, _⟩ => ⟨S1x4096, .f32⟩
  | .hbm, ⟨55, _⟩ => ⟨S_, .f32⟩
  | .hbm, ⟨56, _⟩ => ⟨S1x4096, .f32⟩
  | .hbm, ⟨57, _⟩ => ⟨S1x4096, .f32⟩
  | .hbm, ⟨58, _⟩ => ⟨S1x4096, .f32⟩
  | .hbm, ⟨59, _⟩ => ⟨S1x4096, .f32⟩
  | .hbm, ⟨60, _⟩ => ⟨S4096x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1x4096, .f32⟩
  | .hbm, ⟨65, _⟩ => ⟨S1x1x4096, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  shapeCasts_S1x1x4096_S1x4096 : S1x1x4096.ShapeCasts S1x4096
  transposes_S16384x4096_S4096x16384_1_0 : S16384x4096.Transposes [1, 0] S4096x16384
  bcast_S16384_S1x16384_1 : S16384.BroadcastsInDim S1x16384 (![1] : Fin 1 → Fin S1x16384.rank)
  slices_S1x16384_S1x4096_0_0 : S1x16384.Slices ![0, 0] S1x4096
  slices_S1x16384_S1x4096_0_4096 : S1x16384.Slices ![0, 4096] S1x4096
  slices_S1x16384_S1x4096_0_8192 : S1x16384.Slices ![0, 8192] S1x4096
  slices_S1x16384_S1x4096_0_12288 : S1x16384.Slices ![0, 12288] S1x4096
  bcast_S_S1x4096 : S_.BroadcastsInDim S1x4096 (![] : Fin 0 → Fin S1x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x4096_S1x1x4096_1_2 : S1x4096.BroadcastsInDim S1x1x4096 (![1, 2] : Fin 2 → Fin S1x1x4096.rank)
  dot_S1x1024_S1024x4096_S1x4096_1_0_0_1_n_n_wf : DotDims.WF S1x1024 S1024x4096 S1x4096 [1] [0] [0] [1] [] []
  dot_S1x4096_S4096x16384_S1x16384_1_0_0_1_n_n_wf : DotDims.WF S1x4096 S4096x16384 S1x16384 [1] [0] [0] [1] [] []
  dot_S1x4096_S4096x1024_S1x1024_1_0_0_1_n_n_wf : DotDims.WF S1x4096 S4096x1024 S1x1024 [1] [0] [0] [1] [] []

variable [Facts₀]

def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x4096_S4096x16384_S1x16384_1_0_0_1_n_n : DotDims S1x4096 S4096x16384 S1x16384 where
  lhsContracting := [1]
  rhsContracting := [0]
  lhsNonContracting := [0]
  rhsNonContracting := [1]
  lhsBatch := []
  rhsBatch := []
  wf := dot_S1x4096_S4096x16384_S1x16384_1_0_0_1_n_n_wf
def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf

class Facts : Prop extends Facts₀ where

variable [Facts]
-- ==== Proof.LstmSpec.lean ====
/-
  One step of an LSTM cell between two dense layers, over the extended reals, written once and independently of
  either program.

  From an input row x, a previous hidden row h and a previous cell row c:

    ξ[n]      = Σ_κ x[κ] · W_in[n, κ] + b_in[n]                                        (input projection)
    a_g[j]    = (Σ_κ ξ[κ] · W_ih[g, j, κ] + Σ_κ h[κ] · W_hh[g, j, κ]) + (b_ih[g, j] + b_hh[g, j])      g = 0, 1, 2, 3
    c'[j]     = σ(a_1[j]) · c[j] + σ(a_0[j]) · tanh(a_2[j])
    h'[j]     = σ(a_3[j]) · tanh(c'[j])
    out[e]    = Σ_κ h'[κ] · W_out[e, κ] + b_out[e]                                      (output projection)

  where σ(t) = 1 / (1 + e^(-t)) on the extended reals. The four gate blocks g = 0 … 3 are the four consecutive
  groups of 4096 rows of the stacked weight matrices (row g · 4096 + j), and of the stacked biases.

  The three stages are stated over the arrays each stage reads (so that a stage can be read off one launch of a
  program that computes it), and then composed over the eleven original arrays, the re-layouts between them
  (a vector as a one-row matrix, a [1, 1, n] array as a one-row matrix, 16384 stacked rows as 4 × 4096) written
  as index arithmetic.
-/
import Idealize.ShloMosaic.Lib.ValueIdx
import Idealize.ShloMosaic.PureOps.Ideal

noncomputable section

namespace Cert.LstmSpec

open Idealize.ShloMosaic Idealize.ShloMosaic.ValueIdx

/-- An array of extended reals over a literal shape. -/
abbrev Arr (s : Shape) : Type := s.Idx → EReal

/-! ## The three stages, each over the arrays it reads -/

/-- A dense layer into 4096 units from 1024 inputs: entry n of the result row is Σ_κ a[κ] · W[n, κ] + b[n]. -/
def proj_in (a : Arr ⟨2, ![1, 1024]⟩) (W : Arr ⟨2, ![4096, 1024]⟩) (b : Arr ⟨2, ![1, 4096]⟩) : Arr ⟨2, ![1, 4096]⟩ :=
  fun i => (∑ κ : Fin 1024, a (ix2 0 κ) * W (ix2 (i 1) κ)) + b (ix2 0 (i 1))

/-- Gate g's pre-activation at unit j: both matrix-vector products first, then the sum of the two biases. -/
def gate (ξ h : Arr ⟨2, ![1, 4096]⟩) (Wih Whh : Arr ⟨3, ![4, 4096, 4096]⟩) (bih bhh : Arr ⟨2, ![4, 4096]⟩)
    (g : Fin 4) (j : Fin 4096) : EReal :=
  ((∑ κ : Fin 4096, ξ (ix2 0 κ) * Wih (ix3 g j κ)) + (∑ κ : Fin 4096, h (ix2 0 κ) * Whh (ix3 g j κ)))
    + (bih (ix2 g j) + bhh (ix2 g j))

/-- The new cell row: σ(forget gate) · c + σ(input gate) · tanh(candidate gate). -/
def cell (ξ h c : Arr ⟨2, ![1, 4096]⟩) (Wih Whh : Arr ⟨3, ![4, 4096, 4096]⟩) (bih bhh : Arr ⟨2, ![4, 4096]⟩) :
    Arr ⟨2, ![1, 4096]⟩ :=
  fun i => Ideal.logistic (gate ξ h Wih Whh bih bhh 1 (i 1)) * c (ix2 0 (i 1))
    + Ideal.logistic (gate ξ h Wih Whh bih bhh 0 (i 1)) * Ideal.tanh (gate ξ h Wih Whh bih bhh 2 (i 1))

/-- The new hidden row: σ(output gate) · tanh(new cell). -/
def hidden (ξ h c : Arr ⟨2, ![1, 4096]⟩) (Wih Whh : Arr ⟨3, ![4, 4096, 4096]⟩) (bih bhh : Arr ⟨2, ![4, 4096]⟩) :
    Arr ⟨2, ![1, 4096]⟩ :=
  fun i => Ideal.logistic (gate ξ h Wih Whh bih bhh 3 (i 1)) * Ideal.tanh (cell ξ h c Wih Whh bih bhh (ix2 0 (i 1)))

/-- A dense layer into 1024 units from 4096 inputs. -/
def proj_out (a : Arr ⟨2, ![1, 4096]⟩) (W : Arr ⟨2, ![1024, 4096]⟩) (b : Arr ⟨2, ![1, 1024]⟩) : Arr ⟨2, ![1, 1024]⟩ :=
  fun i => (∑ κ : Fin 4096, a (ix2 0 κ) * W (ix2 (i 1) κ)) + b (ix2 0 (i 1))

/-! ## The re-layouts, as index arithmetic -/

/-- A vector as a one-row matrix. -/
def asRow {n : ℕ} (v : Arr ⟨1, ![n]⟩) : Arr ⟨2, ![1, n]⟩ := fun i => v (ix1 (i 1))

/-- A [1, 1, n] array as a one-row matrix. -/
def dropLead {n : ℕ} (v : Arr ⟨3, ![1, 1, n]⟩) : Arr ⟨2, ![1, n]⟩ := fun i => v (ix3 0 0 (i 1))

/-- A one-row matrix as a [1, 1, n] array. -/
def addLead {n : ℕ} (v : Arr ⟨2, ![1, n]⟩) : Arr ⟨3, ![1, 1, n]⟩ := fun i => v (ix2 0 (i 2))

/-- Row g · 4096 + j of a stack of four blocks of 4096 rows. -/
def stackedRow (g : Fin 4) (j : Fin 4096) : Fin 16384 := ⟨g.val * 4096 + j.val, by omega⟩

/-- 16384 stacked rows of 4096 as four blocks of 4096 rows. -/
def blocks4 (W : Arr ⟨2, ![16384, 4096]⟩) : Arr ⟨3, ![4, 4096, 4096]⟩ := fun i => W (ix2 (stackedRow (i 0) (i 1)) (i 2))

/-- 16384 stacked entries as four blocks of 4096. -/
def blocks4v (b : Arr ⟨1, ![16384]⟩) : Arr ⟨2, ![4, 4096]⟩ := fun i => b (ix1 (stackedRow (i 0) (i 1)))

/-! ## The whole step over the eleven original arrays -/

section Whole

variable (x : Arr ⟨2, ![1, 1024]⟩) (h0 c0 : Arr ⟨3, ![1, 1, 4096]⟩) (Win : Arr ⟨2, ![4096, 1024]⟩) (bin : Arr ⟨1, ![4096]⟩)
  (Wih Whh : Arr ⟨2, ![16384, 4096]⟩) (bih bhh : Arr ⟨1, ![16384]⟩) (Wout : Arr ⟨2, ![1024, 4096]⟩) (bout : Arr ⟨1, ![1024]⟩)

/-- The projected input row. -/
def xiRow : Arr ⟨2, ![1, 4096]⟩ := proj_in x Win (asRow bin)

/-- The new cell state as a one-row matrix. -/
def cellRow : Arr ⟨2, ![1, 4096]⟩ :=
  cell (xiRow x Win bin) (dropLead h0) (dropLead c0) (blocks4 Wih) (blocks4 Whh) (blocks4v bih) (blocks4v bhh)

/-- The new hidden state as a one-row matrix. -/
def hiddenRow : Arr ⟨2, ![1, 4096]⟩ :=
  hidden (xiRow x Win bin) (dropLead h0) (dropLead c0) (blocks4 Wih) (blocks4 Whh) (blocks4v bih) (blocks4v bhh)

/-- The step's first result: the output projection of the new hidden state. -/
def outRow : Arr ⟨2, ![1, 1024]⟩ := proj_out (hiddenRow x h0 c0 Win bin Wih Whh bih bhh) Wout (asRow bout)

/-- The step's second result: the new hidden state, [1, 1, 4096]. -/
def hiddenOut : Arr ⟨3, ![1, 1, 4096]⟩ := addLead (hiddenRow x h0 c0 Win bin Wih Whh bih bhh)

/-- The step's third result: the new cell state, [1, 1, 4096]. -/
def cellOut : Arr ⟨3, ![1, 1, 4096]⟩ := addLead (cellRow x h0 c0 Win bin Wih Whh bih bhh)

end Whole

/-! ## The one law between the two groupings of a gate's sum -/

/-- Adding the first bias before the second product and the second bias last gives the same extended real as
    adding both products first and the two biases together: addition on the extended reals is associative and
    commutative, with no finiteness needed. -/
theorem gate_sum_regroup (A B b₁ b₂ : EReal) : ((A + b₁) + B) + b₂ = (A + B) + (b₁ + b₂) := by
  rw [add_assoc (A + b₁) B b₂, add_add_add_comm]

/-- σ as the quotient the host program spells: 1 / (1 + e^(-t)). -/
theorem logistic_eq_div (t : EReal) : Ideal.div 1 (1 + Ideal.exp (-t)) = Ideal.logistic t := rfl

end Cert.LstmSpec

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Region0Value.lean ====
/-
  The first launch (the input projection), read as a value at the ideal instance: whatever the buffers hold when the
  region is entered, its output array ends holding, at column n, Σ_κ x[0, κ] · W[n, κ] + b[0, n] of the three arrays
  it reads. Grid point t computes columns 1024·t … 1024·t + 1023 from rows 1024·t … of W; the four blocks tile the row.
-/
import proofs.«142130_j22763326668968_1_alg».proof.Proof.Gen.KernelIdeal.Frame
import proofs.«142130_j22763326668968_1_alg».proof.Proof.LstmSpec
import proofs.«142130_j22763326668968_1_alg».proof.Proof.LibPlainDot
import Idealize.ShloMosaic.Lib.Pipeline.Value
import Idealize.ShloMosaic.Lib.ValueLayout

set_option maxRecDepth 16384

noncomputable section

namespace Cert.KernelIdeal.StepValue

open Cert.KernelIdeal Cert.KernelIdeal.Gen Idealize.ShloMosaic Idealize.ShloMosaic.TcCoe Idealize.ShloMosaic.ValueIdx
open Idealize.SL.Sem

-- the TensorCore's buffer contents when a region is entered: the parameter each region's value is stated at
variable (V : (c : Dev nD) → (b : Ref sig .tc) → Buf (Elt Ideal) ((c : Thread nD τ).loc b))

/-- The body loads and stores its whole staging buffers: through the rectangle at offsets (0, 0). -/
theorem inputProj_zero_offsets : (![0, 0] : Fin 2 → Nat) = fun _ => 0 := funext fun a => by fin_cases a <;> rfl

/-- The body's result at entry (p, q), over any three loaded blocks: the row of x against ROW q of the loaded
    weight block (the product's right operand is that block transposed), plus the bias block's entry. The
    narrowing to bf16 is the identity on the extended reals, the shape cast is between equal shapes, and the
    product into a zero accumulator is the exact sum over the contraction index. -/
theorem inputProj_payload_entry (x : Vec Ideal S1x1024 .f32) (W : Vec Ideal S1024x1024 .f32) (b : Vec Ideal S1x1024 .f32)
    (p : Fin 1) (q : Fin 1024) :
    k0_pay1 (F := Ideal) x W b (ix2 p q) = (∑ κ : Fin 1024, x (ix2 p κ) * W (ix2 q κ)) + b (ix2 p q) := by
  unfold k0_pay1
  rw [addf_apply, shapeCast_self]
  rw [Cert.PlainDot.matmul_zero_apply ⟨rfl, rfl, rfl, rfl, rfl, rfl⟩ rfl rfl]
  congr 1
  refine Finset.sum_congr rfl fun κ _ => ?_
  rw [truncf_apply, transpose_ix2_apply, truncf_apply]

/-- The four points of the grid. -/
theorem inputProj_four_points : cfg0.N = 4 := N_0

/-- The printed index maps, decided over the four points: x's window stays at block (0, 0); the weight's window is
    at row block t; the bias's and the output's windows are at column block t. -/
theorem inputProj_index_maps : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Column 1024·t + q of a row of 4096, for a point t of the grid and a column q of its block. -/
def inputProj_colOf (t : Fin cfg0.N) (q : Fin 1024) : Fin 4096 := ⟨1024 * t.val + q.val, by have := t.isLt; have := inputProj_four_points; omega⟩

/-- x's block at any point is x itself. -/
theorem inputProj_x_block (c : Dev nD) (t : Fin cfg0.N) (p : Fin 1) (κ : Fin 1024) :
    (iblk0 V c 0 t : Vec Ideal S1x1024 .f32) (ix2 p κ) = (V c main_arg0 : S1x1024.Idx → EReal) (ix2 0 κ) := by
  obtain ⟨e0, e1, -⟩ := inputProj_index_maps t
  unfold iblk0
  rw [View.read_apply]
  show V c main_arg0 _ = V c main_arg0 _
  congr 1
  funext a
  apply Fin.ext
  match a with
  | ⟨0, _⟩ => show win0_0.index t (0 : Fin 2) * 1 + 1 * p.val = 0; have := p.isLt; omega
  | ⟨1, _⟩ => show win0_0.index t (1 : Fin 2) * 1024 + 1 * κ.val = κ.val; omega

/-- Row q of the weight's block at point t is row 1024·t + q of the weight. -/
theorem inputProj_W_block (c : Dev nD) (t : Fin cfg0.N) (q κ : Fin 1024) :
    (iblk0 V c 1 t : Vec Ideal S1024x1024 .f32) (ix2 q κ) = (V c main_arg3 : S4096x1024.Idx → EReal) (ix2 (inputProj_colOf t q) κ) := by
  obtain ⟨-, -, e0, e1, -⟩ := inputProj_index_maps t
  unfold iblk0
  rw [View.read_apply]
  show V c main_arg3 _ = V c main_arg3 _
  congr 1
  funext a
  apply Fin.ext
  match a with
  | ⟨0, _⟩ => show win0_1.index t (0 : Fin 2) * 1024 + 1 * q.val = 1024 * t.val + q.val; omega
  | ⟨1, _⟩ => show win0_1.index t (1 : Fin 2) * 1024 + 1 * κ.val = κ.val; omega

/-- Column q of the bias's block at point t is column 1024·t + q of the bias. -/
theorem inputProj_b_block (c : Dev nD) (t : Fin cfg0.N) (p : Fin 1) (q : Fin 1024) :
    (iblk0 V c 2 t : Vec Ideal S1x1024 .f32) (ix2 p q) = (V c main_v0 : S1x4096.Idx → EReal) (ix2 0 (inputProj_colOf t q)) := by
  obtain ⟨-, -, -, -, e0, e1, -⟩ := inputProj_index_maps t
  unfold iblk0
  rw [View.read_apply]
  show V c main_v0 _ = V c main_v0 _
  congr 1
  funext a
  apply Fin.ext
  match a with
  | ⟨0, _⟩ => show win0_2.index t (0 : Fin 2) * 1 + 1 * p.val = 0; have := p.isLt; omega
  | ⟨1, _⟩ => show win0_2.index t (1 : Fin 2) * 1024 + 1 * q.val = 1024 * t.val + q.val; omega

/-- Entry (p, q) of the output's block at point t sits at column 1024·t + q of the output row. -/
theorem inputProj_out_place (t : Fin cfg0.N) (p : Fin 1) (q : Fin 1024) :
    (((cfg0.win 3).blk t).view.emb (ix2 p q) : S1x4096.Idx) = ix2 0 (inputProj_colOf t q) := by
  obtain ⟨-, -, -, -, -, -, e0, e1⟩ := inputProj_index_maps t
  funext a
  apply Fin.ext
  match a with
  | ⟨0, _⟩ => show win0_3.index t (0 : Fin 2) * 1 + 1 * p.val = 0; have := p.isLt; omega
  | ⟨1, _⟩ => show win0_3.index t (1 : Fin 2) * 1024 + 1 * q.val = 1024 * t.val + q.val; omega

/-- What point t writes back is block t of the dense layer of the three arrays as the launch finds them. -/
theorem inputProj_flushed_block (c : Dev nD) (t : Fin cfg0.N) :
    (dat0 (F := Ideal) V c).flushed 3 t
      = ((cfg0.win 3).blk t).view.read (Elt Ideal) (Cert.LstmSpec.proj_in (V c main_arg0) (V c main_arg3) (V c main_v0)) := by
  show (cfg0.win 3).cut (grid0.coords t) ((dat0 V c).after 3 t) = _
  rw [after0_3]
  unfold out0_3
  rw [View.canon_unit_zero inputProj_zero_offsets]
  simp only [View.ld_unit_zero (S := S1x1024) inputProj_zero_offsets, View.ld_unit_zero (S := S1024x1024) inputProj_zero_offsets]
  refine funext fun (j : S1x1024.Idx) => ?_
  obtain ⟨p, q, rfl⟩ : ∃ (p : Fin 1) (q : Fin 1024), j = ix2 p q := ⟨j 0, j 1, eq_ix2 j⟩
  rw [View.read_apply, inputProj_out_place]
  refine (inputProj_payload_entry _ _ _ p q).trans ?_
  unfold Cert.LstmSpec.proj_in
  rw [inputProj_b_block]
  congr 1
  refine Finset.sum_congr rfl fun κ _ => ?_
  rw [inputProj_x_block, inputProj_W_block]

/-- An index of the output row is in point t's block iff each coordinate is in the block's range on its axis. -/
theorem inputProj_mem_block (t : Fin cfg0.N) (i : S1x4096.Idx) :
    i ∈ ((cfg0.win 3).blk t).view.set
      ↔ ∀ a : Fin 2, win0_3.index t a * S1x1024.size a ≤ (i a).val ∧ (i a).val < win0_3.index t a * S1x1024.size a + S1x1024.size a := by
  show i ∈ ((View.whole main_v1).slice (win0_3.rect t)).set ↔ _
  rw [View.set_slice_whole, Rect.mem_set_unit]
  exact Iff.rfl

/-- The four blocks tile the row: column n is in the block of point n / 1024, and every point writes back. -/
theorem inputProj_covered (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  have hN := inputProj_four_points
  obtain ⟨t, ht⟩ : ∃ t : Fin cfg0.N, t.val = (i 1).val / 1024 := ⟨⟨(i 1).val / 1024, by omega⟩, rfl⟩
  obtain ⟨-, -, -, -, -, -, e0, e1⟩ := inputProj_index_maps t
  refine ⟨t, flush0_3 t, ?_⟩
  rw [inputProj_mem_block]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 1024 ≤ (i 1).val ∧ (i 1).val < win0_3.index t (1 : Fin 2) * 1024 + 1024; omega

/-- The input projection's output array after the launch is the dense layer of the arrays the launch reads. -/
theorem region0_array (c : Dev nD) :
    (dat0 (F := Ideal) V c).arrAt 3 cfg0.N = Cert.LstmSpec.proj_in (V c main_arg0) (V c main_arg3) (V c main_v0) := by
  exact (dat0 (F := Ideal) V c).arrAt_eq_of_cover 3
    (Cert.LstmSpec.proj_in (V c main_arg0) (V c main_arg3) (V c main_v0)) (fun t _ => inputProj_flushed_block V c t) inputProj_covered

end Cert.KernelIdeal.StepValue

end
-- ==== Proof.Region1Value.lean ====
/-
  The second launch (the cell update), read as a value at the ideal instance: whatever the buffers hold when the region
  is entered, its two output arrays end holding the new hidden row and the new cell row of the seven arrays it reads.
  Grid point t computes units 128·t … 128·t + 127 of all four gates from rows 128·t … of each of the four weight
  blocks; the thirty-two blocks tile the row.
-/
import proofs.«142130_j22763326668968_1_alg».proof.Proof.Gen.KernelIdeal.Frame
import proofs.«142130_j22763326668968_1_alg».proof.Proof.LstmSpec
import proofs.«142130_j22763326668968_1_alg».proof.Proof.LibPlainDot
import Idealize.ShloMosaic.Lib.Pipeline.Value
import Idealize.ShloMosaic.Lib.ValueLayout

set_option maxRecDepth 16384

noncomputable section

namespace Cert.KernelIdeal.StepValue

open Cert.KernelIdeal Cert.KernelIdeal.Gen Idealize.ShloMosaic Idealize.ShloMosaic.TcCoe Idealize.ShloMosaic.ValueIdx
open Idealize.SL.Sem

/-! ## The body's arithmetic at an entry -/

/-- A row times the transpose of a block of 128 rows, into a zero accumulator: entry (p, q) is the inner product
    of the row with row q of the block. -/
theorem cellUpd_row_dot_rows {φ₁ φ₂ : FTy} (l : FVec Ideal S1x4096 φ₁) (w : FVec Ideal S128x4096 φ₂) (p : Fin 1) (q : Fin 128) :
    matmul (F := Ideal) dot_S1x4096_S4096x128_S1x128_1_0_0_1_n_n none l
        (transpose S4096x128 [1, 0] w transposes_S128x4096_p1_0_S4096x128) (constant (F := Ideal) S1x128 .f32 0x00000000#32) (ix2 p q)
      = ∑ κ : Fin 4096, l (ix2 p κ) * w (ix2 q κ) := by
  rw [Cert.PlainDot.matmul_zero_apply ⟨rfl, rfl, rfl, rfl, rfl, rfl⟩ rfl rfl]
  refine Finset.sum_congr rfl fun κ _ => ?_
  rw [transpose_ix2_apply]

/-- The two bias rows, each flattened, added, and the sum made a row again: entry (p, q) is the sum of the two
    entries at q. -/
theorem cellUpd_bias_rows_add (b₁ b₂ : FVec Ideal S1x128 .f32) (p : Fin 1) (q : Fin 128) :
    shapeCast S1x128 (addf (F := Ideal) (shapeCast S128 b₁ shapeCasts_S1x128_S128) (shapeCast S128 b₂ shapeCasts_S1x128_S128))
        shapeCasts_S128_S1x128 (ix2 p q)
      = b₁ (ix2 0 q) + b₂ (ix2 0 q) := by
  rw [shapeCast_a_1a_apply, addf_apply, shapeCast_1a_a_apply, shapeCast_1a_a_apply]

/-- A gate's pre-activation block from the two rows, the two weight blocks and the two bias rows, at an entry:
    both products first, then the sum of the biases. -/
theorem cellUpd_preact_apply {φ₁ φ₂ : FTy} (l₁ l₂ : FVec Ideal S1x4096 φ₁) (w₁ w₂ : FVec Ideal S128x4096 φ₂) (b₁ b₂ : FVec Ideal S1x128 .f32)
    (p : Fin 1) (q : Fin 128) :
    addf (F := Ideal)
        (addf (F := Ideal)
          (matmul (F := Ideal) dot_S1x4096_S4096x128_S1x128_1_0_0_1_n_n none l₁
            (transpose S4096x128 [1, 0] w₁ transposes_S128x4096_p1_0_S4096x128) (constant (F := Ideal) S1x128 .f32 0x00000000#32))
          (matmul (F := Ideal) dot_S1x4096_S4096x128_S1x128_1_0_0_1_n_n none l₂
            (transpose S4096x128 [1, 0] w₂ transposes_S128x4096_p1_0_S4096x128) (constant (F := Ideal) S1x128 .f32 0x00000000#32)))
        (shapeCast S1x128 (addf (F := Ideal) (shapeCast S128 b₁ shapeCasts_S1x128_S128) (shapeCast S128 b₂ shapeCasts_S1x128_S128))
          shapeCasts_S128_S1x128) (ix2 p q)
      = ((∑ κ : Fin 4096, l₁ (ix2 p κ) * w₁ (ix2 q κ)) + (∑ κ : Fin 4096, l₂ (ix2 p κ) * w₂ (ix2 q κ)))
          + (b₁ (ix2 0 q) + b₂ (ix2 0 q)) := by
  rw [addf_apply, addf_apply, cellUpd_row_dot_rows, cellUpd_row_dot_rows, cellUpd_bias_rows_add]

/-- The input row kept as it is: the cast to its own shape and the change of format are the identity on the
    extended reals. -/
theorem cellUpd_row_kept₁ (v : FVec Ideal S1x4096 .f32) : (k1_pay3 (F := Ideal) v : S1x4096.Idx → EReal) = v := by
  unfold k1_pay3; funext i; rw [truncf_apply, shapeCast_self]

theorem cellUpd_row_kept₂ (v : FVec Ideal S1x4096 .f32) : (k1_pay4 (F := Ideal) v : S1x4096.Idx → EReal) = v := by
  unfold k1_pay4; funext i; rw [truncf_apply, shapeCast_self]

/-- The cell block kept as it is. -/
theorem cellUpd_cell_kept (v : FVec Ideal S1x128 .f32) : (k1_pay5 (F := Ideal) v : S1x128.Idx → EReal) = v := by
  unfold k1_pay5; rw [shapeCast_self]

/-- A loaded weight slab with its unit axis dropped, at (q, κ). -/
theorem cellUpd_slab_flat (v : FVec Ideal S1x128x4096 .f32) (q : Fin 128) (κ : Fin 4096) :
    (truncf (F := Ideal) .bf16 (shapeCast S128x4096 v shapeCasts_S1x128x4096_S128x4096) bitsLt_bf16_f32 : FVec Ideal S128x4096 .bf16) (ix2 q κ)
      = v (ix3 0 q κ) := by
  rw [truncf_apply, shapeCast_1ab_ab_apply]

/-- Gate 0's pre-activation block, from the two rows, its two loaded slabs and its two bias rows. -/
theorem cellUpd_preact₀_apply (x h : FVec Ideal S1x4096 .f32) (W₁ W₂ : FVec Ideal S1x128x4096 .f32) (b₁ b₂ : FVec Ideal S1x128 .f32)
    (p : Fin 1) (q : Fin 128) :
    k1_pay6 (F := Ideal) x h W₁ W₂ b₁ b₂ (ix2 p q)
      = ((∑ κ : Fin 4096, x (ix2 p κ) * W₁ (ix3 0 q κ)) + (∑ κ : Fin 4096, h (ix2 p κ) * W₂ (ix3 0 q κ)))
          + (b₁ (ix2 0 q) + b₂ (ix2 0 q)) := by
  unfold k1_pay6
  rw [cellUpd_preact_apply, cellUpd_row_kept₁, cellUpd_row_kept₂]
  simp only [cellUpd_slab_flat]

/-- Gate 1's: its slabs arrive already flattened. -/
theorem cellUpd_preact₁_apply (x h : FVec Ideal S1x4096 .bf16) (W₁ W₂ : FVec Ideal S128x4096 .bf16) (b₁ b₂ : FVec Ideal S1x128 .f32)
    (p : Fin 1) (q : Fin 128) :
    k1_pay9 (F := Ideal) x h W₁ W₂ b₁ b₂ (ix2 p q)
      = ((∑ κ : Fin 4096, x (ix2 p κ) * W₁ (ix2 q κ)) + (∑ κ : Fin 4096, h (ix2 p κ) * W₂ (ix2 q κ)))
          + (b₁ (ix2 0 q) + b₂ (ix2 0 q)) := by
  unfold k1_pay9
  rw [cellUpd_preact_apply]

/-- Gate 2's. -/
theorem cellUpd_preact₂_apply (x h : FVec Ideal S1x4096 .bf16) (W₁ W₂ : FVec Ideal S1x128x4096 .f32) (b₁ b₂ : FVec Ideal S1x128 .f32)
    (p : Fin 1) (q : Fin 128) :
    k1_pay10 (F := Ideal) x h W₁ W₂ b₁ b₂ (ix2 p q)
      = ((∑ κ : Fin 4096, x (ix2 p κ) * W₁ (ix3 0 q κ)) + (∑ κ : Fin 4096, h (ix2 p κ) * W₂ (ix3 0 q κ)))
          + (b₁ (ix2 0 q) + b₂ (ix2 0 q)) := by
  unfold k1_pay10
  rw [cellUpd_preact_apply]
  simp only [cellUpd_slab_flat]

/-- A flattened slab as a payload of its own, at (q, κ). -/
theorem cellUpd_slab₁_apply (v : FVec Ideal S1x128x4096 .f32) (q : Fin 128) (κ : Fin 4096) : k1_pay7 (F := Ideal) v (ix2 q κ) = v (ix3 0 q κ) := by
  unfold k1_pay7; exact cellUpd_slab_flat v q κ
theorem cellUpd_slab₂_apply (v : FVec Ideal S1x128x4096 .f32) (q : Fin 128) (κ : Fin 4096) : k1_pay8 (F := Ideal) v (ix2 q κ) = v (ix3 0 q κ) := by
  unfold k1_pay8; exact cellUpd_slab_flat v q κ
theorem cellUpd_slab₃_apply (v : FVec Ideal S1x128x4096 .f32) (q : Fin 128) (κ : Fin 4096) : k1_pay11 (F := Ideal) v (ix2 q κ) = v (ix3 0 q κ) := by
  unfold k1_pay11; exact cellUpd_slab_flat v q κ
theorem cellUpd_slab₄_apply (v : FVec Ideal S1x128x4096 .f32) (q : Fin 128) (κ : Fin 4096) : k1_pay12 (F := Ideal) v (ix2 q κ) = v (ix3 0 q κ) := by
  unfold k1_pay12; exact cellUpd_slab_flat v q κ

/-- The new cell block at an entry: σ(gate 1) · c + σ(gate 0) · tanh(gate 2). -/
theorem cellUpd_cell_block_apply (c a₀ a₁ a₂ : FVec Ideal S1x128 .f32) (j : S1x128.Idx) :
    k1_pay1 (F := Ideal) c a₀ a₁ a₂ j = Ideal.logistic (a₁ j) * c j + Ideal.logistic (a₀ j) * Ideal.tanh (a₂ j) := rfl

/-- The new hidden block at an entry: σ(gate 3) · tanh(new cell), gate 3's pre-activation computed in place. -/
theorem cellUpd_hidden_block_apply (x h : FVec Ideal S1x4096 .bf16) (c a₀ a₁ a₂ : FVec Ideal S1x128 .f32) (W₁ W₂ : FVec Ideal S128x4096 .bf16)
    (b₁ b₂ : FVec Ideal S1x128 .f32) (p : Fin 1) (q : Fin 128) :
    k1_pay2 (F := Ideal) x h c a₀ a₁ a₂ W₁ W₂ b₁ b₂ (ix2 p q)
      = Ideal.logistic (((∑ κ : Fin 4096, x (ix2 p κ) * W₁ (ix2 q κ)) + (∑ κ : Fin 4096, h (ix2 p κ) * W₂ (ix2 q κ)))
            + (b₁ (ix2 0 q) + b₂ (ix2 0 q)))
          * Ideal.tanh (k1_pay1 (F := Ideal) c a₀ a₁ a₂ (ix2 p q)) := by
  unfold k1_pay2
  show Ideal.logistic (_) * Ideal.tanh _ = _
  rw [cellUpd_preact_apply]

/-! ## The two output blocks at an entry, from the seven input blocks -/

theorem cellUpd_zero_offsets : (![0, 0] : Fin 2 → Nat) = fun _ => 0 := funext fun a => by fin_cases a <;> rfl

/-- The load of one gate's weight slab out of the block of four: the slab at offset (o, 0, 0), read at (u, q, κ), is the
    block at (g, q, κ) when o is g. -/
theorem cellUpd_ld_slab (X : Vec Ideal S4x128x4096 .f32) (o : Nat)
    (inb : ∀ a, (![o, 0, 0] : Fin 3 → Nat) a + S1x128x4096.size a ≤ S4x128x4096.size a) (g : Fin 4) (hg : g.val = o) :
    View.ld X (Rect.unit (s := S4x128x4096) ![o, 0, 0] S1x128x4096.size inb) = fun y => X (ix3 g (y 1) (y 2)) := by
  funext y
  show X _ = X _
  congr 1
  funext a
  apply Fin.ext
  have h0 : (y 0).val < 1 := (y 0).isLt
  match a with
  | ⟨0, _⟩ => show o + 1 * (y 0).val = g.val; omega
  | ⟨1, _⟩ => show 0 + 1 * (y 1).val = (y 1).val; omega
  | ⟨2, _⟩ => show 0 + 1 * (y 2).val = (y 2).val; omega

/-- The load of one gate's bias row out of the block of four. -/
theorem cellUpd_ld_bias (X : Vec Ideal S4x128 .f32) (o : Nat)
    (inb : ∀ a, (![o, 0] : Fin 2 → Nat) a + S1x128.size a ≤ S4x128.size a) (g : Fin 4) (hg : g.val = o) :
    View.ld X (Rect.unit (s := S4x128) ![o, 0] S1x128.size inb) = fun y => X (ix2 g (y 1)) := by
  funext y
  show X _ = X _
  congr 1
  funext a
  apply Fin.ext
  have h0 : (y 0).val < 1 := (y 0).isLt
  match a with
  | ⟨0, _⟩ => show o + 1 * (y 0).val = g.val; omega
  | ⟨1, _⟩ => show 0 + 1 * (y 1).val = (y 1).val; omega

section Blocks

variable (x h : Vec Ideal S1x4096 .f32) (c : Vec Ideal S1x128 .f32) (W₁ W₂ : Vec Ideal S4x128x4096 .f32) (b₁ b₂ : Vec Ideal S4x128 .f32)

/-- Gate g's pre-activation at unit q of a block, from the blocks: the block's counterpart of the specification's gate. -/
def cellUpd_blockPreact (g : Fin 4) (q : Fin 128) : EReal :=
  ((∑ κ : Fin 4096, x (ix2 0 κ) * W₁ (ix3 g q κ)) + (∑ κ : Fin 4096, h (ix2 0 κ) * W₂ (ix3 g q κ)))
    + (b₁ (ix2 g q) + b₂ (ix2 g q))

/-- The new cell value at unit q of a block, from the blocks. -/
def cellUpd_blockCell (q : Fin 128) : EReal :=
  Ideal.logistic (cellUpd_blockPreact x h W₁ W₂ b₁ b₂ 1 q) * c (ix2 0 q)
    + Ideal.logistic (cellUpd_blockPreact x h W₁ W₂ b₁ b₂ 0 q) * Ideal.tanh (cellUpd_blockPreact x h W₁ W₂ b₁ b₂ 2 q)

theorem cellUpd_ld_slab₀ : View.ld W₁ r1_2 = fun y => W₁ (ix3 0 (y 1) (y 2)) := cellUpd_ld_slab W₁ 0 _ 0 rfl
theorem cellUpd_ld_slab₁ : View.ld W₁ r1_4 = fun y => W₁ (ix3 1 (y 1) (y 2)) := cellUpd_ld_slab W₁ 1 _ 1 rfl
theorem cellUpd_ld_slab₂ : View.ld W₁ r1_6 = fun y => W₁ (ix3 2 (y 1) (y 2)) := cellUpd_ld_slab W₁ 2 _ 2 rfl
theorem cellUpd_ld_slab₃ : View.ld W₁ r1_8 = fun y => W₁ (ix3 3 (y 1) (y 2)) := cellUpd_ld_slab W₁ 3 _ 3 rfl
theorem cellUpd_ld_bias₀ : View.ld b₁ r1_3 = fun y => b₁ (ix2 0 (y 1)) := cellUpd_ld_bias b₁ 0 _ 0 rfl
theorem cellUpd_ld_bias₁ : View.ld b₁ r1_5 = fun y => b₁ (ix2 1 (y 1)) := cellUpd_ld_bias b₁ 1 _ 1 rfl
theorem cellUpd_ld_bias₂ : View.ld b₁ r1_7 = fun y => b₁ (ix2 2 (y 1)) := cellUpd_ld_bias b₁ 2 _ 2 rfl
theorem cellUpd_ld_bias₃ : View.ld b₁ r1_9 = fun y => b₁ (ix2 3 (y 1)) := cellUpd_ld_bias b₁ 3 _ 3 rfl

/-- What the body leaves in the cell output's buffer, at an entry. -/
theorem cellUpd_out_cell_apply (p : Fin 1) (q : Fin 128) :
    out1_8 (F := Ideal) x h c W₁ W₂ b₁ b₂ (ix2 p q) = cellUpd_blockCell x h c W₁ W₂ b₁ b₂ q := by
  obtain rfl : p = 0 := Subsingleton.elim _ _
  unfold out1_8
  rw [View.canon_unit_zero cellUpd_zero_offsets]
  simp only [View.ld_unit_zero (S := S1x4096) cellUpd_zero_offsets, View.ld_unit_zero (S := S1x128) cellUpd_zero_offsets]
  rw [cellUpd_ld_slab₀ W₁, cellUpd_ld_slab₀ W₂, cellUpd_ld_slab₁ W₁, cellUpd_ld_slab₁ W₂, cellUpd_ld_slab₂ W₁, cellUpd_ld_slab₂ W₂,
    cellUpd_ld_bias₀ b₁, cellUpd_ld_bias₀ b₂, cellUpd_ld_bias₁ b₁, cellUpd_ld_bias₁ b₂, cellUpd_ld_bias₂ b₁, cellUpd_ld_bias₂ b₂]
  rw [cellUpd_cell_block_apply, cellUpd_preact₀_apply, cellUpd_preact₁_apply, cellUpd_preact₂_apply, cellUpd_cell_kept, cellUpd_row_kept₁, cellUpd_row_kept₂]
  simp only [cellUpd_slab₁_apply, cellUpd_slab₂_apply]
  rfl

end Blocks

section Blocks

variable (x h : Vec Ideal S1x4096 .f32) (c : Vec Ideal S1x128 .f32) (W₁ W₂ : Vec Ideal S4x128x4096 .f32) (b₁ b₂ : Vec Ideal S4x128 .f32)

/-- The new hidden value at unit q of a block, from the blocks. -/
def cellUpd_blockHidden (q : Fin 128) : EReal :=
  Ideal.logistic (cellUpd_blockPreact x h W₁ W₂ b₁ b₂ 3 q) * Ideal.tanh (cellUpd_blockCell x h c W₁ W₂ b₁ b₂ q)

/-- What the body leaves in the hidden output's buffer, at an entry. -/
theorem cellUpd_out_hidden_apply (p : Fin 1) (q : Fin 128) :
    out1_7 (F := Ideal) x h c W₁ W₂ b₁ b₂ (ix2 p q) = cellUpd_blockHidden x h c W₁ W₂ b₁ b₂ q := by
  obtain rfl : p = 0 := Subsingleton.elim _ _
  unfold out1_7
  rw [View.canon_unit_zero cellUpd_zero_offsets]
  simp only [View.ld_unit_zero (S := S1x4096) cellUpd_zero_offsets, View.ld_unit_zero (S := S1x128) cellUpd_zero_offsets]
  rw [cellUpd_ld_slab₀ W₁, cellUpd_ld_slab₀ W₂, cellUpd_ld_slab₁ W₁, cellUpd_ld_slab₁ W₂, cellUpd_ld_slab₂ W₁, cellUpd_ld_slab₂ W₂, cellUpd_ld_slab₃ W₁, cellUpd_ld_slab₃ W₂,
    cellUpd_ld_bias₀ b₁, cellUpd_ld_bias₀ b₂, cellUpd_ld_bias₁ b₁, cellUpd_ld_bias₁ b₂, cellUpd_ld_bias₂ b₁, cellUpd_ld_bias₂ b₂, cellUpd_ld_bias₃ b₁, cellUpd_ld_bias₃ b₂]
  rw [cellUpd_hidden_block_apply, cellUpd_cell_block_apply, cellUpd_preact₀_apply, cellUpd_preact₁_apply, cellUpd_preact₂_apply, cellUpd_cell_kept, cellUpd_row_kept₁, cellUpd_row_kept₂]
  simp only [cellUpd_slab₁_apply, cellUpd_slab₂_apply, cellUpd_slab₃_apply, cellUpd_slab₄_apply]
  rfl

end Blocks

/-! ## From the blocks to the arrays -/

-- the TensorCore's buffer contents when a region is entered: the parameter each region's value is stated at
variable (V : (c : Dev nD) → (b : Ref sig .tc) → Buf (Elt Ideal) ((c : Thread nD τ).loc b))

/-- The printed index maps over the grid: the two rows stay at block (0, 0); every other window is at block t along
    its axis of 4096 and at block 0 along the others. -/
theorem cellUpd_block_indices : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0
    ∧ win1_5.index t (0 : Fin 2) = 0 ∧ win1_5.index t (1 : Fin 2) = t.val
    ∧ win1_6.index t (0 : Fin 2) = 0 ∧ win1_6.index t (1 : Fin 2) = t.val
    ∧ win1_7.index t (0 : Fin 2) = 0 ∧ win1_7.index t (1 : Fin 2) = t.val
    ∧ win1_8.index t (0 : Fin 2) = 0 ∧ win1_8.index t (1 : Fin 2) = t.val :=
  (by decide +kernel : ∀ t : Fin grid1.N, _)

/-- Unit q of block t is unit 128·t + q of the row. -/
def cellUpd_unitOf (t : Fin cfg1.N) (q : Fin 128) : Fin 4096 :=
  ⟨t.val * 128 + q.val, by have h : t.val < 32 := N_1 ▸ t.isLt; omega⟩

section Reads

variable (c : Dev nD) (t : Fin cfg1.N)

/-- The input row's block is the whole row. -/
theorem cellUpd_row_block₁ (κ : Fin 4096) :
    (iblk1 V c 0 t : Vec Ideal S1x4096 .f32) (ix2 0 κ) = (V c main_v1 : S1x4096.Idx → EReal) (ix2 0 κ) := by
  obtain ⟨e0, e1, -⟩ := cellUpd_block_indices t
  unfold iblk1
  rw [View.read_apply]
  show V c main_v1 _ = V c main_v1 _
  congr 1
  funext a
  apply Fin.ext
  match a with
  | ⟨0, _⟩ => show win1_0.index t (0 : Fin 2) * 1 + 1 * 0 = 0; omega
  | ⟨1, _⟩ => show win1_0.index t (1 : Fin 2) * 4096 + 1 * κ.val = κ.val; omega

end Reads

section Reads

variable (c : Dev nD) (t : Fin cfg1.N)

/-- The previous hidden row's block is the whole row. -/
theorem cellUpd_row_block₂ (κ : Fin 4096) :
    (iblk1 V c 1 t : Vec Ideal S1x4096 .f32) (ix2 0 κ) = (V c main_v2 : S1x4096.Idx → EReal) (ix2 0 κ) := by
  obtain ⟨-, -, e0, e1, -⟩ := cellUpd_block_indices t
  unfold iblk1
  rw [View.read_apply]
  show V c main_v2 _ = V c main_v2 _
  congr 1
  funext a
  apply Fin.ext
  match a with
  | ⟨0, _⟩ => show win1_1.index t (0 : Fin 2) * 1 + 1 * 0 = 0; omega
  | ⟨1, _⟩ => show win1_1.index t (1 : Fin 2) * 4096 + 1 * κ.val = κ.val; omega

/-- The previous cell row's block t at unit q is the row at unit 128·t + q. -/
theorem cellUpd_cell_block_read (q : Fin 128) :
    (iblk1 V c 2 t : Vec Ideal S1x128 .f32) (ix2 0 q) = (V c main_v3 : S1x4096.Idx → EReal) (ix2 0 (cellUpd_unitOf t q)) := by
  obtain ⟨-, -, -, -, e0, e1, -⟩ := cellUpd_block_indices t
  unfold iblk1
  rw [View.read_apply]
  show V c main_v3 _ = V c main_v3 _
  congr 1
  funext a
  apply Fin.ext
  match a with
  | ⟨0, _⟩ => show win1_2.index t (0 : Fin 2) * 1 + 1 * 0 = 0; omega
  | ⟨1, _⟩ => show win1_2.index t (1 : Fin 2) * 128 + 1 * q.val = t.val * 128 + q.val; omega

/-- The first weight array's block t at (g, q, κ) is the array at (g, 128·t + q, κ). -/
theorem cellUpd_slab_block₁ (g : Fin 4) (q : Fin 128) (κ : Fin 4096) :
    (iblk1 V c 3 t : Vec Ideal S4x128x4096 .f32) (ix3 g q κ) = (V c main_v4 : S4x4096x4096.Idx → EReal) (ix3 g (cellUpd_unitOf t q) κ) := by
  obtain ⟨-, -, -, -, -, -, e0, e1, e2, -⟩ := cellUpd_block_indices t
  unfold iblk1
  rw [View.read_apply]
  show V c main_v4 _ = V c main_v4 _
  congr 1
  funext a
  apply Fin.ext
  match a with
  | ⟨0, _⟩ => show win1_3.index t (0 : Fin 3) * 4 + 1 * g.val = g.val; omega
  | ⟨1, _⟩ => show win1_3.index t (1 : Fin 3) * 128 + 1 * q.val = t.val * 128 + q.val; omega
  | ⟨2, _⟩ => show win1_3.index t (2 : Fin 3) * 4096 + 1 * κ.val = κ.val; omega

/-- The second weight array's. -/
theorem cellUpd_slab_block₂ (g : Fin 4) (q : Fin 128) (κ : Fin 4096) :
    (iblk1 V c 4 t : Vec Ideal S4x128x4096 .f32) (ix3 g q κ) = (V c main_v5 : S4x4096x4096.Idx → EReal) (ix3 g (cellUpd_unitOf t q) κ) := by
  obtain ⟨-, -, -, -, -, -, -, -, -, e0, e1, e2, -⟩ := cellUpd_block_indices t
  unfold iblk1
  rw [View.read_apply]
  show V c main_v5 _ = V c main_v5 _
  congr 1
  funext a
  apply Fin.ext
  match a with
  | ⟨0, _⟩ => show win1_4.index t (0 : Fin 3) * 4 + 1 * g.val = g.val; omega
  | ⟨1, _⟩ => show win1_4.index t (1 : Fin 3) * 128 + 1 * q.val = t.val * 128 + q.val; omega
  | ⟨2, _⟩ => show win1_4.index t (2 : Fin 3) * 4096 + 1 * κ.val = κ.val; omega

/-- The first bias array's block t at (g, q) is the array at (g, 128·t + q). -/
theorem cellUpd_bias_block₁ (g : Fin 4) (q : Fin 128) :
    (iblk1 V c 5 t : Vec Ideal S4x128 .f32) (ix2 g q) = (V c main_v6 : S4x4096.Idx → EReal) (ix2 g (cellUpd_unitOf t q)) := by
  obtain ⟨-, -, -, -, -, -, -, -, -, -, -, -, e0, e1, -⟩ := cellUpd_block_indices t
  unfold iblk1
  rw [View.read_apply]
  show V c main_v6 _ = V c main_v6 _
  congr 1
  funext a
  apply Fin.ext
  match a with
  | ⟨0, _⟩ => show win1_5.index t (0 : Fin 2) * 4 + 1 * g.val = g.val; omega
  | ⟨1, _⟩ => show win1_5.index t (1 : Fin 2) * 128 + 1 * q.val = t.val * 128 + q.val; omega

/-- The second bias array's. -/
theorem cellUpd_bias_block₂ (g : Fin 4) (q : Fin 128) :
    (iblk1 V c 6 t : Vec Ideal S4x128 .f32) (ix2 g q) = (V c main_v7 : S4x4096.Idx → EReal) (ix2 g (cellUpd_unitOf t q)) := by
  obtain ⟨-, -, -, -, -, -, -, -, -, -, -, -, -, -, e0, e1, -⟩ := cellUpd_block_indices t
  unfold iblk1
  rw [View.read_apply]
  show V c main_v7 _ = V c main_v7 _
  congr 1
  funext a
  apply Fin.ext
  match a with
  | ⟨0, _⟩ => show win1_6.index t (0 : Fin 2) * 4 + 1 * g.val = g.val; omega
  | ⟨1, _⟩ => show win1_6.index t (1 : Fin 2) * 128 + 1 * q.val = t.val * 128 + q.val; omega

/-- A gate's pre-activation at unit q of block t, from the blocks, is the specification's gate at unit 128·t + q, from
    the arrays. -/
theorem cellUpd_blockPreact_eq (g : Fin 4) (q : Fin 128) :
    cellUpd_blockPreact (iblk1 V c 0 t) (iblk1 V c 1 t) (iblk1 V c 3 t) (iblk1 V c 4 t) (iblk1 V c 5 t) (iblk1 V c 6 t) g q
      = Cert.LstmSpec.gate (V c main_v1) (V c main_v2) (V c main_v4) (V c main_v5) (V c main_v6) (V c main_v7) g (cellUpd_unitOf t q) := by
  unfold cellUpd_blockPreact Cert.LstmSpec.gate
  rw [cellUpd_bias_block₁, cellUpd_bias_block₂]
  simp only [cellUpd_row_block₁, cellUpd_row_block₂, cellUpd_slab_block₁, cellUpd_slab_block₂]

/-- The new cell value at unit q of block t is the specification's new cell row at unit 128·t + q. -/
theorem cellUpd_blockCell_eq (q : Fin 128) :
    cellUpd_blockCell (iblk1 V c 0 t) (iblk1 V c 1 t) (iblk1 V c 2 t) (iblk1 V c 3 t) (iblk1 V c 4 t) (iblk1 V c 5 t) (iblk1 V c 6 t) q
      = Cert.LstmSpec.cell (V c main_v1) (V c main_v2) (V c main_v3) (V c main_v4) (V c main_v5) (V c main_v6) (V c main_v7)
          (ix2 0 (cellUpd_unitOf t q)) := by
  unfold cellUpd_blockCell
  rw [cellUpd_blockPreact_eq, cellUpd_blockPreact_eq, cellUpd_blockPreact_eq, cellUpd_cell_block_read]
  rfl

/-- The new hidden value at unit q of block t is the specification's new hidden row at unit 128·t + q. -/
theorem cellUpd_blockHidden_eq (q : Fin 128) :
    cellUpd_blockHidden (iblk1 V c 0 t) (iblk1 V c 1 t) (iblk1 V c 2 t) (iblk1 V c 3 t) (iblk1 V c 4 t) (iblk1 V c 5 t) (iblk1 V c 6 t) q
      = Cert.LstmSpec.hidden (V c main_v1) (V c main_v2) (V c main_v3) (V c main_v4) (V c main_v5) (V c main_v6) (V c main_v7)
          (ix2 0 (cellUpd_unitOf t q)) := by
  unfold cellUpd_blockHidden
  rw [cellUpd_blockPreact_eq, cellUpd_blockCell_eq]
  rfl

end Reads

/-! ## What a point writes back, the cover, and the two arrays -/

section Arrays

variable (c : Dev nD)

/-- Entry (p, q) of output block t sits at (0, 128·t + q) of the row. -/
theorem cellUpd_hidden_emb (t : Fin cfg1.N) (p : Fin 1) (q : Fin 128) :
    ((cfg1.win 7).blk t).view.emb (ix2 p q) = (ix2 0 (cellUpd_unitOf t q) : S1x4096.Idx) := by
  obtain ⟨-, -, -, -, -, -, -, -, -, -, -, -, -, -, -, -, e0, e1, -⟩ := cellUpd_block_indices t
  funext a
  apply Fin.ext
  match a with
  | ⟨0, _⟩ => show win1_7.index t (0 : Fin 2) * 1 + 1 * p.val = 0; omega
  | ⟨1, _⟩ => show win1_7.index t (1 : Fin 2) * 128 + 1 * q.val = t.val * 128 + q.val; omega

theorem cellUpd_cell_emb (t : Fin cfg1.N) (p : Fin 1) (q : Fin 128) :
    ((cfg1.win 8).blk t).view.emb (ix2 p q) = (ix2 0 (cellUpd_unitOf t q) : S1x4096.Idx) := by
  obtain ⟨-, -, -, -, -, -, -, -, -, -, -, -, -, -, -, -, -, -, e0, e1⟩ := cellUpd_block_indices t
  funext a
  apply Fin.ext
  match a with
  | ⟨0, _⟩ => show win1_8.index t (0 : Fin 2) * 1 + 1 * p.val = 0; omega
  | ⟨1, _⟩ => show win1_8.index t (1 : Fin 2) * 128 + 1 * q.val = t.val * 128 + q.val; omega

/-- What point t writes back to the hidden output is block t of the specification's new hidden row. -/
theorem cellUpd_flushed_hidden (t : Fin cfg1.N) :
    (dat1 (F := Ideal) V c).flushed 7 t = ((cfg1.win 7).blk t).view.read (Elt Ideal)
      (Cert.LstmSpec.hidden (V c main_v1) (V c main_v2) (V c main_v3) (V c main_v4) (V c main_v5) (V c main_v6) (V c main_v7)) := by
  show (cfg1.win 7).cut (grid1.coords t) ((dat1 V c).after 7 t) = _
  rw [after1_7]
  funext j
  obtain ⟨p, q, rfl⟩ : ∃ (p : Fin 1) (q : Fin 128), j = ix2 p q := ⟨j 0, j 1, eq_ix2 j⟩
  rw [View.read_apply, cellUpd_hidden_emb, ← cellUpd_blockHidden_eq]
  exact cellUpd_out_hidden_apply (iblk1 V c 0 t) (iblk1 V c 1 t) (iblk1 V c 2 t) (iblk1 V c 3 t) (iblk1 V c 4 t) (iblk1 V c 5 t) (iblk1 V c 6 t) p q

/-- What point t writes back to the cell output is block t of the specification's new cell row. -/
theorem cellUpd_flushed_cell (t : Fin cfg1.N) :
    (dat1 (F := Ideal) V c).flushed 8 t = ((cfg1.win 8).blk t).view.read (Elt Ideal)
      (Cert.LstmSpec.cell (V c main_v1) (V c main_v2) (V c main_v3) (V c main_v4) (V c main_v5) (V c main_v6) (V c main_v7)) := by
  show (cfg1.win 8).cut (grid1.coords t) ((dat1 V c).after 8 t) = _
  rw [after1_8]
  funext j
  obtain ⟨p, q, rfl⟩ : ∃ (p : Fin 1) (q : Fin 128), j = ix2 p q := ⟨j 0, j 1, eq_ix2 j⟩
  rw [View.read_apply, cellUpd_cell_emb, ← cellUpd_blockCell_eq]
  exact cellUpd_out_cell_apply (iblk1 V c 0 t) (iblk1 V c 1 t) (iblk1 V c 2 t) (iblk1 V c 3 t) (iblk1 V c 4 t) (iblk1 V c 5 t) (iblk1 V c 6 t) p q

/-- An index of the row is in point t's hidden block iff each coordinate is in the block's range on its axis. -/
theorem cellUpd_mem_hidden_block (t : Fin cfg1.N) (i : S1x4096.Idx) :
    i ∈ ((cfg1.win 7).blk t).view.set
      ↔ ∀ a : Fin 2, win1_7.index t a * S1x128.size a ≤ (i a).val ∧ (i a).val < win1_7.index t a * S1x128.size a + S1x128.size a := by
  show i ∈ ((View.whole main_v8_0).slice (win1_7.rect t)).set ↔ _
  rw [View.set_slice_whole, Rect.mem_set_unit]
  exact Iff.rfl

theorem cellUpd_mem_cell_block (t : Fin cfg1.N) (i : S1x4096.Idx) :
    i ∈ ((cfg1.win 8).blk t).view.set
      ↔ ∀ a : Fin 2, win1_8.index t a * S1x128.size a ≤ (i a).val ∧ (i a).val < win1_8.index t a * S1x128.size a + S1x128.size a := by
  show i ∈ ((View.whole main_v8_1).slice (win1_8.rect t)).set ↔ _
  rw [View.set_slice_whole, Rect.mem_set_unit]
  exact Iff.rfl

/-- The point that covers column n of the row: n / 128. -/
def cellUpd_pointOf (i : S1x4096.Idx) : Fin cfg1.N :=
  ⟨(i 1).val / 128, by have h : (i 1).val < 4096 := (i 1).isLt; rw [show cfg1.N = 32 from N_1]; omega⟩

/-- The thirty-two hidden blocks cover the row. -/
theorem cellUpd_hidden_cover (i : S1x4096.Idx) : ∃ t : Fin cfg1.N, (cfg1.win 7).flush t = true ∧ i ∈ ((cfg1.win 7).blk t).view.set := by
  refine ⟨cellUpd_pointOf i, flush1_7 _, ?_⟩
  obtain ⟨-, -, -, -, -, -, -, -, -, -, -, -, -, -, -, -, e0, e1, -⟩ := cellUpd_block_indices (cellUpd_pointOf i)
  have h0 : (i 0).val < 1 := (i 0).isLt
  have h1 : (i 1).val < 4096 := (i 1).isLt
  have ht : (cellUpd_pointOf i).val = (i 1).val / 128 := rfl
  rw [cellUpd_mem_hidden_block]
  intro a
  match a with
  | ⟨0, _⟩ => show win1_7.index (cellUpd_pointOf i) (0 : Fin 2) * 1 ≤ (i 0).val ∧ (i 0).val < win1_7.index (cellUpd_pointOf i) (0 : Fin 2) * 1 + 1; omega
  | ⟨1, _⟩ => show win1_7.index (cellUpd_pointOf i) (1 : Fin 2) * 128 ≤ (i 1).val ∧ (i 1).val < win1_7.index (cellUpd_pointOf i) (1 : Fin 2) * 128 + 128; omega

/-- The thirty-two cell blocks cover the row. -/
theorem cellUpd_cell_cover (i : S1x4096.Idx) : ∃ t : Fin cfg1.N, (cfg1.win 8).flush t = true ∧ i ∈ ((cfg1.win 8).blk t).view.set := by
  refine ⟨cellUpd_pointOf i, flush1_8 _, ?_⟩
  obtain ⟨-, -, -, -, -, -, -, -, -, -, -, -, -, -, -, -, -, -, e0, e1⟩ := cellUpd_block_indices (cellUpd_pointOf i)
  have h0 : (i 0).val < 1 := (i 0).isLt
  have h1 : (i 1).val < 4096 := (i 1).isLt
  have ht : (cellUpd_pointOf i).val = (i 1).val / 128 := rfl
  rw [cellUpd_mem_cell_block]
  intro a
  match a with
  | ⟨0, _⟩ => show win1_8.index (cellUpd_pointOf i) (0 : Fin 2) * 1 ≤ (i 0).val ∧ (i 0).val < win1_8.index (cellUpd_pointOf i) (0 : Fin 2) * 1 + 1; omega
  | ⟨1, _⟩ => show win1_8.index (cellUpd_pointOf i) (1 : Fin 2) * 128 ≤ (i 1).val ∧ (i 1).val < win1_8.index (cellUpd_pointOf i) (1 : Fin 2) * 128 + 128; omega

end Arrays

/-- The cell update's first output array after the launch: the new hidden row. -/
theorem region1_hidden (c : Dev nD) :
    (dat1 (F := Ideal) V c).arrAt 7 cfg1.N
      = Cert.LstmSpec.hidden (V c main_v1) (V c main_v2) (V c main_v3) (V c main_v4) (V c main_v5) (V c main_v6) (V c main_v7) :=
  (dat1 (F := Ideal) V c).arrAt_eq_of_cover 7 _ (fun t _ => cellUpd_flushed_hidden V c t) cellUpd_hidden_cover

/-- The cell update's second output array after the launch: the new cell row. -/
theorem region1_cell (c : Dev nD) :
    (dat1 (F := Ideal) V c).arrAt 8 cfg1.N
      = Cert.LstmSpec.cell (V c main_v1) (V c main_v2) (V c main_v3) (V c main_v4) (V c main_v5) (V c main_v6) (V c main_v7) :=
  (dat1 (F := Ideal) V c).arrAt_eq_of_cover 8 _ (fun t _ => cellUpd_flushed_cell V c t) cellUpd_cell_cover

end Cert.KernelIdeal.StepValue

end
-- ==== Proof.Region2Value.lean ====
/-
  The third launch (the output projection), read as a value at the ideal instance: whatever the buffers hold when the
  region is entered, its output array ends holding, at column e, Σ_κ h[0, κ] · W[e, κ] + b[0, e] of the three arrays it
  reads. Grid point t computes columns 256·t … 256·t + 255 from rows 256·t … of W; the four blocks tile the row.
-/
import proofs.«142130_j22763326668968_1_alg».proof.Proof.Gen.KernelIdeal.Frame
import proofs.«142130_j22763326668968_1_alg».proof.Proof.LstmSpec
import proofs.«142130_j22763326668968_1_alg».proof.Proof.LibPlainDot
import Idealize.ShloMosaic.Lib.Pipeline.Value
import Idealize.ShloMosaic.Lib.ValueLayout

set_option maxRecDepth 16384

noncomputable section

namespace Cert.KernelIdeal.StepValue

open Cert.KernelIdeal Cert.KernelIdeal.Gen Idealize.ShloMosaic Idealize.ShloMosaic.TcCoe Idealize.ShloMosaic.ValueIdx
open Idealize.SL.Sem

-- the TensorCore's buffer contents when a region is entered: the parameter each region's value is stated at
variable (V : (c : Dev nD) → (b : Ref sig .tc) → Buf (Elt Ideal) ((c : Thread nD τ).loc b))

/-! ## The body's arithmetic at an index -/

/-- The offsets (0, 0) are the zero function. -/
theorem outputProj_zero_offsets : (![0, 0] : Fin 2 → Nat) = fun _ => 0 := funext fun a => by fin_cases a <;> rfl

/-- Column q of what the body stores: the hidden row times row q of the loaded weight block (the product's right
    operand is the block transposed, so its entry (κ, q) is the block's (q, κ)), plus the bias block's entry. -/
theorem outputProj_proj_block_apply (x0 : Vec Ideal S1x4096 .f32) (x1 : Vec Ideal S256x4096 .f32) (x2 : Vec Ideal S1x256 .f32)
    (p : Fin 1) (q : Fin 256) :
    k2_pay1 (F := Ideal) x0 x1 x2 (ix2 p q) = (∑ κ : Fin 4096, x0 (ix2 p κ) * x1 (ix2 q κ)) + x2 (ix2 p q) := by
  unfold k2_pay1
  simp only [shapeCast_self]
  rw [addf_apply, Cert.PlainDot.matmul_zero_apply ⟨rfl, rfl, rfl, rfl, rfl, rfl⟩ rfl rfl]
  congr 1
  refine Finset.sum_congr rfl fun κ _ => ?_
  rw [truncf_apply]
  congr 1
  exact transpose_apply [1, 0] _ _ (ix2 κ q) (ix2 q κ) (fun b => by match b with | ⟨0, _⟩ => rfl | ⟨1, _⟩ => rfl)

/-! ## From blocks to the array -/

/-- The dense layer at column n of its one row. -/
theorem outputProj_dense_row_apply (a : Cert.LstmSpec.Arr ⟨2, ![1, 4096]⟩) (W : Cert.LstmSpec.Arr ⟨2, ![1024, 4096]⟩)
    (b : Cert.LstmSpec.Arr ⟨2, ![1, 1024]⟩) (n : Fin 1024) :
    Cert.LstmSpec.proj_out a W b (ix2 (0 : Fin 1) n) = (∑ κ : Fin 4096, a (ix2 0 κ) * W (ix2 n κ)) + b (ix2 0 n) := rfl

/-- The four index maps over the grid: the hidden row is always block (0, 0); at point t the weight window is at row
    block t, the bias and the output windows at column block t. -/
theorem outputProj_index_maps : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- The hidden row's block at any point is the whole row. -/
theorem outputProj_hidden_block (c : Dev nD) (t : Fin cfg2.N) (p : Fin 1) (κ : Fin 4096) :
    iblk2 V c 0 t (ix2 p κ) = V c main_v8_0 (ix2 0 κ) := by
  obtain ⟨e00, e01, -⟩ := outputProj_index_maps t
  show V c main_v8_0 (((cfg2.win 0).blk t).view.emb (ix2 p κ)) = _
  refine congrArg (V c main_v8_0) (funext fun a => Fin.ext ?_)
  have hp := p.isLt
  match a with
  | ⟨0, _⟩ => show win2_0.index t (0 : Fin 2) * 1 + 1 * p.val = 0; omega
  | ⟨1, _⟩ => show win2_0.index t (1 : Fin 2) * 4096 + 1 * κ.val = κ.val; omega

/-- Row q of the weight block at point t is row 256·t + q of the weight matrix. -/
theorem outputProj_weight_block (c : Dev nD) (t : Fin cfg2.N) (q : Fin 256) (κ : Fin 4096) (n : Fin 1024) (hn : n.val = 256 * t.val + q.val) :
    iblk2 V c 1 t (ix2 q κ) = V c main_arg9 (ix2 n κ) := by
  obtain ⟨-, -, e10, e11, -⟩ := outputProj_index_maps t
  show V c main_arg9 (((cfg2.win 1).blk t).view.emb (ix2 q κ)) = _
  refine congrArg (V c main_arg9) (funext fun a => Fin.ext ?_)
  match a with
  | ⟨0, _⟩ => show win2_1.index t (0 : Fin 2) * 256 + 1 * q.val = n.val; omega
  | ⟨1, _⟩ => show win2_1.index t (1 : Fin 2) * 4096 + 1 * κ.val = κ.val; omega

/-- Entry q of the bias block at point t is entry 256·t + q of the bias row. -/
theorem outputProj_bias_block (c : Dev nD) (t : Fin cfg2.N) (p : Fin 1) (q : Fin 256) (n : Fin 1024) (hn : n.val = 256 * t.val + q.val) :
    iblk2 V c 2 t (ix2 p q) = V c main_v9 (ix2 0 n) := by
  obtain ⟨-, -, -, -, e20, e21, -⟩ := outputProj_index_maps t
  show V c main_v9 (((cfg2.win 2).blk t).view.emb (ix2 p q)) = _
  refine congrArg (V c main_v9) (funext fun a => Fin.ext ?_)
  have hp := p.isLt
  match a with
  | ⟨0, _⟩ => show win2_2.index t (0 : Fin 2) * 1 + 1 * p.val = 0; omega
  | ⟨1, _⟩ => show win2_2.index t (1 : Fin 2) * 256 + 1 * q.val = n.val; omega

/-- What point t writes back is columns 256·t … 256·t + 255 of the dense layer of the three arrays. -/
theorem outputProj_written_back (c : Dev nD) (t : Fin cfg2.N) :
    (dat2 (F := Ideal) V c).flushed 3 t
      = ((cfg2.win 3).blk t).view.read (Elt Ideal) (Cert.LstmSpec.proj_out (V c main_v8_0) (V c main_arg9) (V c main_v9)) := by
  show (cfg2.win 3).cut (grid2.coords t) ((dat2 V c).after 3 t) = _
  rw [after2_3]
  unfold out2_3
  rw [View.canon_unit_zero outputProj_zero_offsets]
  simp only [View.ld_unit_zero (S := S1x4096) outputProj_zero_offsets, View.ld_unit_zero (S := S256x4096) outputProj_zero_offsets,
    View.ld_unit_zero (S := S1x256) outputProj_zero_offsets]
  obtain ⟨-, -, -, -, -, -, e30, e31⟩ := outputProj_index_maps t
  have ht : t.val < 4 := Nat.lt_of_lt_of_eq t.isLt N_2
  funext j
  obtain ⟨p, q, rfl⟩ : ∃ (p : Fin 1) (q : Fin 256), j = ix2 p q := ⟨j 0, j 1, eq_ix2 j⟩
  have hp := p.isLt
  have hq := q.isLt
  have hout : ((cfg2.win 3).blk t).view.emb (ix2 p q) = ix2 (0 : Fin 1) (⟨256 * t.val + q.val, by omega⟩ : Fin 1024) :=
    funext fun a => Fin.ext (by
      match a with
      | ⟨0, _⟩ => show win2_3.index t (0 : Fin 2) * 1 + 1 * p.val = 0; omega
      | ⟨1, _⟩ => show win2_3.index t (1 : Fin 2) * 256 + 1 * q.val = 256 * t.val + q.val; omega)
  rw [View.read_apply, hout]
  refine (outputProj_proj_block_apply _ _ _ p q).trans ?_
  rw [outputProj_dense_row_apply, outputProj_bias_block V c t p q ⟨256 * t.val + q.val, by omega⟩ rfl]
  refine congrArg (· + _) (Finset.sum_congr rfl fun κ _ => ?_)
  rw [outputProj_hidden_block V c t p κ, outputProj_weight_block V c t q κ ⟨256 * t.val + q.val, by omega⟩ rfl]

/-- An index of the output row is in point t's block iff each coordinate is in the block's range on its axis. -/
theorem outputProj_mem_column_block (t : Fin cfg2.N) (i : S1x1024.Idx) :
    i ∈ ((cfg2.win 3).blk t).view.set
      ↔ ∀ a : Fin 2, win2_3.index t a * S1x256.size a ≤ (i a).val ∧ (i a).val < win2_3.index t a * S1x256.size a + S1x256.size a := by
  show i ∈ ((View.whole main_v10).slice (win2_3.rect t)).set ↔ _
  rw [View.set_slice_whole, Rect.mem_set_unit]
  exact Iff.rfl

/-- Column n of the output row is written back by point n / 256: the four blocks tile the row. -/
theorem outputProj_columns_covered (i : S1x1024.Idx) :
    ∃ t : Fin cfg2.N, (cfg2.win 3).flush t = true ∧ i ∈ ((cfg2.win 3).blk t).view.set := by
  have h0 : (i 0).val < 1 := (i 0).isLt
  have h1 : (i 1).val < 1024 := (i 1).isLt
  have hN : (i 1).val / 256 < cfg2.N := by rw [show cfg2.N = 4 from N_2]; omega
  obtain ⟨-, -, -, -, -, -, e30, e31⟩ := outputProj_index_maps ⟨(i 1).val / 256, hN⟩
  have e31' : win2_3.index ⟨(i 1).val / 256, hN⟩ (1 : Fin 2) = (i 1).val / 256 := e31
  refine ⟨⟨(i 1).val / 256, hN⟩, flush2_3 _, ?_⟩
  rw [outputProj_mem_column_block]
  intro a
  match a with
  | ⟨0, _⟩ =>
    show win2_3.index ⟨(i 1).val / 256, hN⟩ (0 : Fin 2) * 1 ≤ (i 0).val
      ∧ (i 0).val < win2_3.index ⟨(i 1).val / 256, hN⟩ (0 : Fin 2) * 1 + 1
    omega
  | ⟨1, _⟩ =>
    show win2_3.index ⟨(i 1).val / 256, hN⟩ (1 : Fin 2) * 256 ≤ (i 1).val
      ∧ (i 1).val < win2_3.index ⟨(i 1).val / 256, hN⟩ (1 : Fin 2) * 256 + 256
    omega

/-- The output projection's output array after the launch is the dense layer of the arrays the launch reads. -/
theorem region2_array (c : Dev nD) :
    (dat2 (F := Ideal) V c).arrAt 3 cfg2.N = Cert.LstmSpec.proj_out (V c main_v8_0) (V c main_arg9) (V c main_v9) :=
  (dat2 (F := Ideal) V c).arrAt_eq_of_cover 3 (Cert.LstmSpec.proj_out (V c main_v8_0) (V c main_arg9) (V c main_v9))
    (fun t _ => outputProj_written_back V c t) outputProj_columns_covered

end Cert.KernelIdeal.StepValue

end
-- ==== Proof.Relayout.lean ====
/-
  The five re-layouts between the step's stages, read at an index: a row-major reshape moves no element, so a vector
  viewed as a one-row matrix, a [1, 1, n] array viewed as a one-row matrix (and back), and 16384 stacked rows (or
  entries) viewed as four blocks of 4096 are the index arithmetic the specification writes: position
  (g · 4096 + j) · 4096 + κ is the same on both sides.
-/
import proofs.«142130_j22763326668968_1_alg».proof.Proof.LstmSpec
import Idealize.ShloMosaic.Lib.Pipeline.Value
import Idealize.ShloMosaic.Lib.ValueLayout

noncomputable section

namespace Cert.LstmSpec

open Idealize.ShloMosaic Idealize.ShloMosaic.ValueIdx

/-- A vector reshaped to one row. -/
theorem shapeCast_asRow {n : ℕ} (v : Arr ⟨1, ![n]⟩) (h : (⟨1, ![n]⟩ : Shape).ShapeCasts ⟨2, ![1, n]⟩) :
    shapeCast ⟨2, ![1, n]⟩ v h = asRow v := by
  funext i
  obtain ⟨u, q, rfl⟩ : ∃ (u : Fin 1) (q : Fin n), i = ix2 u q := ⟨i 0, i 1, eq_ix2 i⟩
  exact shapeCast_a_1a_apply v h u q

/-- A [1, 1, n] array reshaped to one row. -/
theorem shapeCast_dropLead {n : ℕ} (v : Arr ⟨3, ![1, 1, n]⟩) (h : (⟨3, ![1, 1, n]⟩ : Shape).ShapeCasts ⟨2, ![1, n]⟩) :
    shapeCast ⟨2, ![1, n]⟩ v h = dropLead v := by
  funext i
  obtain ⟨u, q, rfl⟩ : ∃ (u : Fin 1) (q : Fin n), i = ix2 u q := ⟨i 0, i 1, eq_ix2 i⟩
  have hu : u = 0 := Subsingleton.elim _ _
  subst hu
  exact shapeCast_1ab_ab_apply v h 0 q

/-- One row reshaped to [1, 1, n]. -/
theorem shapeCast_addLead {n : ℕ} (v : Arr ⟨2, ![1, n]⟩) (h : (⟨2, ![1, n]⟩ : Shape).ShapeCasts ⟨3, ![1, 1, n]⟩) :
    shapeCast ⟨3, ![1, 1, n]⟩ v h = addLead v := by
  funext i
  obtain ⟨u, u', q, rfl⟩ : ∃ (u u' : Fin 1) (q : Fin n), i = ix3 u u' q := ⟨i 0, i 1, i 2, eq_ix3 i⟩
  have hu : u' = 0 := Subsingleton.elim _ _
  subst hu
  exact shapeCast_ab_1ab_apply v h u 0 q

/-- 16384 rows of 4096 reshaped to four blocks of 4096 rows: block g, row j is row g · 4096 + j. -/
theorem shapeCast_blocks4 (W : Arr ⟨2, ![16384, 4096]⟩) (h : (⟨2, ![16384, 4096]⟩ : Shape).ShapeCasts ⟨3, ![4, 4096, 4096]⟩) :
    shapeCast ⟨3, ![4, 4096, 4096]⟩ W h = blocks4 W := by
  funext i
  obtain ⟨g, j, κ, rfl⟩ : ∃ (g : Fin 4) (j κ : Fin 4096), i = ix3 g j κ := ⟨i 0, i 1, i 2, eq_ix3 i⟩
  refine shapeCast_apply W h _ (ix2 (stackedRow g j) κ) ?_
  rw [Shape.rowMajor_val_three, Shape.rowMajor_val_two]
  rfl

/-- 16384 entries reshaped to four blocks of 4096: block g, entry j is entry g · 4096 + j. -/
theorem shapeCast_blocks4v (b : Arr ⟨1, ![16384]⟩) (h : (⟨1, ![16384]⟩ : Shape).ShapeCasts ⟨2, ![4, 4096]⟩) :
    shapeCast ⟨2, ![4, 4096]⟩ b h = blocks4v b := by
  funext i
  obtain ⟨g, j, rfl⟩ : ∃ (g : Fin 4) (j : Fin 4096), i = ix2 g j := ⟨i 0, i 1, eq_ix2 i⟩
  refine shapeCast_apply b h _ (ix1 (stackedRow g j)) ?_
  rw [Shape.rowMajor_val_two, Shape.rowMajor_val_one]
  rfl

end Cert.LstmSpec

end
-- ==== Proof.KernelValue.lean ====
/-
  What the idealized kernel program leaves in its three result buffers, as the LSTM step of the specification applied
  to the eleven argument arrays as launched.

  The program is seven segments: reshapes of arguments on the host, the input projection, more reshapes, the cell
  update, one reshape, the output projection, and the two result reshapes. The contents of every buffer at each
  boundary are a fold from the launch memory. Reading the fold backwards from a result buffer: a stretch of host
  operations leaves a buffer it does not write as it was and puts a reshape of its source in the one it writes; a
  launch leaves every buffer that is none of its arrays, and each of its input arrays, as it was, and puts in each
  output array the stage's function of the arrays it read (the three value lemmas of the launches). A reshape moves
  no element, so each one is the index arithmetic the specification writes. Composing: the projected row, then the new
  cell and hidden rows, then the output row.
-/
import proofs.«142130_j22763326668968_1_alg».proof.Proof.Gen.KernelIdeal.Frame
import proofs.«142130_j22763326668968_1_alg».proof.Proof.Region0Value
import proofs.«142130_j22763326668968_1_alg».proof.Proof.Region1Value
import proofs.«142130_j22763326668968_1_alg».proof.Proof.Region2Value
import proofs.«142130_j22763326668968_1_alg».proof.Proof.Relayout
import Idealize.ShloMosaic.Lib.Pipeline.Value
import Idealize.ShloMosaic.Lib.StableHlo.Run

set_option maxRecDepth 16384

noncomputable section

namespace Cert.KernelIdeal.StepValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- A stretch of host operations leaves a buffer none of them writes as it was: the obligation that no operation of
    the stretch writes the buffer, closed by comparing references. -/
local macro "not_written_by " ops:ident : tactic => `(tactic|
  (refine List.forall_iff_forall_mem.mp ?_
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-- `after ops W` at a buffer no operation of `ops` writes. -/
local macro "kept_by " ops:ident " at " b:ident " from " W:term : term =>
  `(StableHlo.after_of_forall_not_mem (b := Proc.devRef .tc $b) $ops $W (by not_written_by $ops))

/-! ## The arguments that reach a later stage unchanged -/

/-- An argument array that the first reshape does not write and the input projection does not touch still holds its
    launch contents after the input projection. -/
theorem after_proj_arg1 (c : Dev nD) : W2 m ρ c (Proc.devRef .tc main_arg1) = m ((c : Thread nD τ).loc main_arg1) :=
  (W2_of_ne m ρ c main_arg1 (by decide)).trans ((kept_by hostOps0 at main_arg1 from (W0 m ρ c)).trans rfl)
theorem after_proj_arg2 (c : Dev nD) : W2 m ρ c (Proc.devRef .tc main_arg2) = m ((c : Thread nD τ).loc main_arg2) :=
  (W2_of_ne m ρ c main_arg2 (by decide)).trans ((kept_by hostOps0 at main_arg2 from (W0 m ρ c)).trans rfl)
theorem after_proj_arg5 (c : Dev nD) : W2 m ρ c (Proc.devRef .tc main_arg5) = m ((c : Thread nD τ).loc main_arg5) :=
  (W2_of_ne m ρ c main_arg5 (by decide)).trans ((kept_by hostOps0 at main_arg5 from (W0 m ρ c)).trans rfl)
theorem after_proj_arg6 (c : Dev nD) : W2 m ρ c (Proc.devRef .tc main_arg6) = m ((c : Thread nD τ).loc main_arg6) :=
  (W2_of_ne m ρ c main_arg6 (by decide)).trans ((kept_by hostOps0 at main_arg6 from (W0 m ρ c)).trans rfl)
theorem after_proj_arg7 (c : Dev nD) : W2 m ρ c (Proc.devRef .tc main_arg7) = m ((c : Thread nD τ).loc main_arg7) :=
  (W2_of_ne m ρ c main_arg7 (by decide)).trans ((kept_by hostOps0 at main_arg7 from (W0 m ρ c)).trans rfl)
theorem after_proj_arg8 (c : Dev nD) : W2 m ρ c (Proc.devRef .tc main_arg8) = m ((c : Thread nD τ).loc main_arg8) :=
  (W2_of_ne m ρ c main_arg8 (by decide)).trans ((kept_by hostOps0 at main_arg8 from (W0 m ρ c)).trans rfl)
theorem after_proj_arg9 (c : Dev nD) : W2 m ρ c (Proc.devRef .tc main_arg9) = m ((c : Thread nD τ).loc main_arg9) :=
  (W2_of_ne m ρ c main_arg9 (by decide)).trans ((kept_by hostOps0 at main_arg9 from (W0 m ρ c)).trans rfl)
theorem after_proj_arg10 (c : Dev nD) : W2 m ρ c (Proc.devRef .tc main_arg10) = m ((c : Thread nD τ).loc main_arg10) :=
  (W2_of_ne m ρ c main_arg10 (by decide)).trans ((kept_by hostOps0 at main_arg10 from (W0 m ρ c)).trans rfl)

/-- The output projection's weight and bias arguments still hold their launch contents after the cell update. -/
theorem after_cell_arg9 (c : Dev nD) : W4 m ρ c (Proc.devRef .tc main_arg9) = m ((c : Thread nD τ).loc main_arg9) :=
  (W4_of_ne m ρ c main_arg9 (by decide)).trans
    ((kept_by hostOps1 at main_arg9 from (W2 m ρ c)).trans (after_proj_arg9 m ρ c))
theorem after_cell_arg10 (c : Dev nD) : W4 m ρ c (Proc.devRef .tc main_arg10) = m ((c : Thread nD τ).loc main_arg10) :=
  (W4_of_ne m ρ c main_arg10 (by decide)).trans
    ((kept_by hostOps1 at main_arg10 from (W2 m ρ c)).trans (after_proj_arg10 m ρ c))

/-! ## The input projection -/

theorem proj_entry_x (c : Dev nD) : V1 m ρ c main_arg0 = m ((c : Thread nD τ).loc main_arg0) :=
  (kept_by hostOps0 at main_arg0 from (W0 m ρ c)).trans rfl
theorem proj_entry_w (c : Dev nD) : V1 m ρ c main_arg3 = m ((c : Thread nD τ).loc main_arg3) :=
  (kept_by hostOps0 at main_arg3 from (W0 m ρ c)).trans rfl
/-- The bias the input projection reads is the bias vector as one row. -/
theorem proj_entry_bias (c : Dev nD) : V1 m ρ c main_v0 = Cert.LstmSpec.asRow (m ((c : Thread nD τ).loc main_arg4)) := by
  have e : V1 m ρ c main_v0 = shapeCast S1x4096 (m ((c : Thread nD τ).loc main_arg4)) shapeCasts_S4096_S1x4096 := by
    show StableHlo.after hostOps0 (W0 m ρ c) (Proc.devRef .tc main_v0) = _
    after_results
    rfl
  rw [e]
  exact Cert.LstmSpec.shapeCast_asRow _ _

/-- After the input projection its output buffer holds the projected row of the launch arguments. -/
theorem projected_row (c : Dev nD) :
    W2 m ρ c (Proc.devRef .tc main_v1) = Cert.LstmSpec.xiRow (m ((c : Thread nD τ).loc main_arg0)) (m ((c : Thread nD τ).loc main_arg3)) (m ((c : Thread nD τ).loc main_arg4)) := by
  refine (W2_arr m ρ c 3).trans ((region0_array (V1 m ρ) c).trans ?_)
  rw [proj_entry_x, proj_entry_w, proj_entry_bias]
  rfl

/-! ## The cell update -/

theorem cell_entry_xi (c : Dev nD) :
    V3 m ρ c main_v1 = Cert.LstmSpec.xiRow (m ((c : Thread nD τ).loc main_arg0)) (m ((c : Thread nD τ).loc main_arg3)) (m ((c : Thread nD τ).loc main_arg4)) :=
  (kept_by hostOps1 at main_v1 from (W2 m ρ c)).trans (projected_row m ρ c)

/-- The previous hidden state the cell update reads is the [1, 1, 4096] argument as one row. -/
theorem cell_entry_h (c : Dev nD) : V3 m ρ c main_v2 = Cert.LstmSpec.dropLead (m ((c : Thread nD τ).loc main_arg1)) := by
  have e : V3 m ρ c main_v2 = shapeCast S1x4096 (W2 m ρ c (Proc.devRef .tc main_arg1)) shapeCasts_S1x1x4096_S1x4096 := by
    show StableHlo.after hostOps1 (W2 m ρ c) (Proc.devRef .tc main_v2) = _
    after_results
    rfl
  rw [e, after_proj_arg1]
  exact Cert.LstmSpec.shapeCast_dropLead _ _
/-- The previous cell state likewise. -/
theorem cell_entry_c (c : Dev nD) : V3 m ρ c main_v3 = Cert.LstmSpec.dropLead (m ((c : Thread nD τ).loc main_arg2)) := by
  have e : V3 m ρ c main_v3 = shapeCast S1x4096 (W2 m ρ c (Proc.devRef .tc main_arg2)) shapeCasts_S1x1x4096_S1x4096 := by
    show StableHlo.after hostOps1 (W2 m ρ c) (Proc.devRef .tc main_v3) = _
    after_results
    rfl
  rw [e, after_proj_arg2]
  exact Cert.LstmSpec.shapeCast_dropLead _ _
/-- The stacked input-to-hidden weights as four blocks of 4096 rows. -/
theorem cell_entry_wih (c : Dev nD) : V3 m ρ c main_v4 = Cert.LstmSpec.blocks4 (m ((c : Thread nD τ).loc main_arg5)) := by
  have e : V3 m ρ c main_v4 = shapeCast S4x4096x4096 (W2 m ρ c (Proc.devRef .tc main_arg5)) shapeCasts_S16384x4096_S4x4096x4096 := by
    show StableHlo.after hostOps1 (W2 m ρ c) (Proc.devRef .tc main_v4) = _
    after_results
    rfl
  rw [e, after_proj_arg5]
  exact Cert.LstmSpec.shapeCast_blocks4 _ _
/-- The stacked hidden-to-hidden weights as four blocks of 4096 rows. -/
theorem cell_entry_whh (c : Dev nD) : V3 m ρ c main_v5 = Cert.LstmSpec.blocks4 (m ((c : Thread nD τ).loc main_arg6)) := by
  have e : V3 m ρ c main_v5 = shapeCast S4x4096x4096 (W2 m ρ c (Proc.devRef .tc main_arg6)) shapeCasts_S16384x4096_S4x4096x4096 := by
    show StableHlo.after hostOps1 (W2 m ρ c) (Proc.devRef .tc main_v5) = _
    after_results
    rfl
  rw [e, after_proj_arg6]
  exact Cert.LstmSpec.shapeCast_blocks4 _ _
/-- The two stacked bias vectors as four blocks of 4096 entries. -/
theorem cell_entry_bih (c : Dev nD) : V3 m ρ c main_v6 = Cert.LstmSpec.blocks4v (m ((c : Thread nD τ).loc main_arg7)) := by
  have e : V3 m ρ c main_v6 = shapeCast S4x4096 (W2 m ρ c (Proc.devRef .tc main_arg7)) shapeCasts_S16384_S4x4096 := by
    show StableHlo.after hostOps1 (W2 m ρ c) (Proc.devRef .tc main_v6) = _
    after_results
    rfl
  rw [e, after_proj_arg7]
  exact Cert.LstmSpec.shapeCast_blocks4v _ _
theorem cell_entry_bhh (c : Dev nD) : V3 m ρ c main_v7 = Cert.LstmSpec.blocks4v (m ((c : Thread nD τ).loc main_arg8)) := by
  have e : V3 m ρ c main_v7 = shapeCast S4x4096 (W2 m ρ c (Proc.devRef .tc main_arg8)) shapeCasts_S16384_S4x4096 := by
    show StableHlo.after hostOps1 (W2 m ρ c) (Proc.devRef .tc main_v7) = _
    after_results
    rfl
  rw [e, after_proj_arg8]
  exact Cert.LstmSpec.shapeCast_blocks4v _ _

/-- After the cell update its first output buffer holds the new hidden row of the launch arguments. -/
theorem hidden_row (c : Dev nD) :
    W4 m ρ c (Proc.devRef .tc main_v8_0) = Cert.LstmSpec.hiddenRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 7).trans ((region1_hidden (V3 m ρ) c).trans ?_)
  rw [cell_entry_xi, cell_entry_h, cell_entry_c, cell_entry_wih, cell_entry_whh, cell_entry_bih, cell_entry_bhh]
  rfl

/-- After the cell update its second output buffer holds the new cell row of the launch arguments. -/
theorem cell_row (c : Dev nD) :
    W4 m ρ c (Proc.devRef .tc main_v8_1) = Cert.LstmSpec.cellRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 8).trans ((region1_cell (V3 m ρ) c).trans ?_)
  rw [cell_entry_xi, cell_entry_h, cell_entry_c, cell_entry_wih, cell_entry_whh, cell_entry_bih, cell_entry_bhh]
  rfl

/-! ## The output projection -/

theorem out_entry_h (c : Dev nD) : V5 m ρ c main_v8_0 = Cert.LstmSpec.hiddenRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (kept_by hostOps2 at main_v8_0 from (W4 m ρ c)).trans (hidden_row m ρ c)
theorem out_entry_w (c : Dev nD) : V5 m ρ c main_arg9 = m ((c : Thread nD τ).loc main_arg9) :=
  (kept_by hostOps2 at main_arg9 from (W4 m ρ c)).trans (after_cell_arg9 m ρ c)
/-- The bias the output projection reads is the bias vector as one row. -/
theorem out_entry_bias (c : Dev nD) : V5 m ρ c main_v9 = Cert.LstmSpec.asRow (m ((c : Thread nD τ).loc main_arg10)) := by
  have e : V5 m ρ c main_v9 = shapeCast S1x1024 (W4 m ρ c (Proc.devRef .tc main_arg10)) shapeCasts_S1024_S1x1024 := by
    show StableHlo.after hostOps2 (W4 m ρ c) (Proc.devRef .tc main_v9) = _
    after_results
    rfl
  rw [e, after_cell_arg10]
  exact Cert.LstmSpec.shapeCast_asRow _ _

/-- After the output projection its output buffer holds the output row of the launch arguments. -/
theorem out_row_after_launch (c : Dev nD) :
    W6 m ρ c (Proc.devRef .tc main_v10) = Cert.LstmSpec.outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 3).trans ((region2_array (V5 m ρ) c).trans ?_)
  rw [out_entry_h, out_entry_w, out_entry_bias]
  rfl

/-- The output projection only reads the new hidden row: its buffer holds the same row afterwards. -/
theorem hidden_row_after_out (c : Dev nD) :
    W6 m ρ c (Proc.devRef .tc main_v8_0) = Cert.LstmSpec.hiddenRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_arr m ρ c 0).trans ((((dat2 (V5 m ρ) c).arrAt_in 0 rfl _).trans (A_eq2 (V5 m ρ) c 0)).trans (out_entry_h m ρ c))

/-- The output projection does not touch the new cell row. -/
theorem cell_row_after_out (c : Dev nD) :
    W6 m ρ c (Proc.devRef .tc main_v8_1) = Cert.LstmSpec.cellRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_of_ne m ρ c main_v8_1 (by decide)).trans ((kept_by hostOps2 at main_v8_1 from (W4 m ρ c)).trans (cell_row m ρ c))

/-! ## The three results at the return -/

/-- The first result buffer ends holding the step's output row. -/
theorem out_value (c : Dev nD) :
    W7 m ρ c (Proc.devRef .tc main_v10) = Cert.LstmSpec.outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (kept_by hostOps3 at main_v10 from (W6 m ρ c)).trans (out_row_after_launch m ρ c)

/-- The second result buffer ends holding the new hidden state, [1, 1, 4096]. -/
theorem hidden_value (c : Dev nD) :
    W7 m ρ c (Proc.devRef .tc main_v11) = Cert.LstmSpec.hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : W7 m ρ c (Proc.devRef .tc main_v11)
      = shapeCast S1x1x4096 (W6 m ρ c (Proc.devRef .tc main_v8_0)) shapeCasts_S1x4096_S1x1x4096 := by
    show StableHlo.after hostOps3 (W6 m ρ c) (Proc.devRef .tc main_v11) = _
    after_results
    rfl
  rw [e, hidden_row_after_out]
  exact Cert.LstmSpec.shapeCast_addLead _ _

/-- The third result buffer ends holding the new cell state, [1, 1, 4096]. -/
theorem cell_value (c : Dev nD) :
    W7 m ρ c (Proc.devRef .tc main_v12) = Cert.LstmSpec.cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : W7 m ρ c (Proc.devRef .tc main_v12)
      = shapeCast S1x1x4096 (W6 m ρ c (Proc.devRef .tc main_v8_1)) shapeCasts_S1x4096_S1x1x4096 := by
    show StableHlo.after hostOps3 (W6 m ρ c) (Proc.devRef .tc main_v12) = _
    after_results
    rfl
  rw [e, cell_row_after_out]
  exact Cert.LstmSpec.shapeCast_addLead _ _

end Cert.KernelIdeal.StepValue

end
-- ==== Proof.RefIsSpec.lean ====
/-
  The reference program's three results, as functions of its eleven argument arrays, are the LSTM step of the
  specification. Its sigmoid is spelled 1 / (1 + e^(-t)), which is σ; it adds the first bias before the second
  matrix-vector product and the second bias last, which is the same extended real as adding both products first and
  the two biases together; it forms all 16384 gate pre-activations in one row and slices it into four, where the
  specification indexes four blocks of 4096 rows.
-/
import proofs.«142130_j22763326668968_1_alg».proof.Proof.Gen.ReferenceIdeal.Read
import proofs.«142130_j22763326668968_1_alg».proof.Proof.LstmSpec
import proofs.«142130_j22763326668968_1_alg».proof.Proof.LibPlainDot
import Idealize.ShloMosaic.Lib.Pipeline.Value
import Idealize.ShloMosaic.Lib.ValueLayout
import Idealize.ShloMosaic.Lib.IdealHost

set_option maxRecDepth 16384

noncomputable section

namespace Cert.ReferenceIdeal.StepValue

open Cert.ReferenceIdeal Cert.ReferenceIdeal.Gen Cert.ReferenceIdeal.Read Idealize.ShloMosaic Idealize.ShloMosaic.TcCoe Idealize.ShloMosaic.ValueIdx
open Idealize.SL.Sem

variable (x0 : (⟨S1x1024, .f32⟩ : BufTy).Contents (Elt Ideal)) (x1 x2 : (⟨S1x1x4096, .f32⟩ : BufTy).Contents (Elt Ideal))
  (x3 : (⟨S4096x1024, .f32⟩ : BufTy).Contents (Elt Ideal)) (x4 : (⟨S4096, .f32⟩ : BufTy).Contents (Elt Ideal))
  (x5 x6 : (⟨S16384x4096, .f32⟩ : BufTy).Contents (Elt Ideal)) (x7 x8 : (⟨S16384, .f32⟩ : BufTy).Contents (Elt Ideal))
  (x9 : (⟨S1024x4096, .f32⟩ : BufTy).Contents (Elt Ideal)) (x10 : (⟨S1024, .f32⟩ : BufTy).Contents (Elt Ideal))

/-! ## Index arithmetic: each generated index map at explicit coordinates -/

theorem lidx1_at (n : Fin 4096) (k : Fin 1024) : lidx_main_v1 (ix2 (0 : Fin 1) n) k = ix2 0 k :=
  funext fun a => Fin.ext (by match a with | ⟨0, _⟩ => rfl | ⟨1, _⟩ => rfl)

theorem ridx1_at (n : Fin 4096) (k : Fin 1024) : idx_main_v0 (ridx_main_v1 (ix2 (0 : Fin 1) n) k) = ix2 n k :=
  funext fun a => Fin.ext (by match a with | ⟨0, _⟩ => rfl | ⟨1, _⟩ => rfl)

theorem idx2_at (n : Fin 4096) : idx_main_v2 (ix2 (0 : Fin 1) n) = ix1 n :=
  funext fun a => Fin.ext (by match a with | ⟨0, _⟩ => rfl)

/-- The projected input row: the transposed weight read back at (n, κ), the bias broadcast along the row. -/
theorem xi_at (n : Fin 4096) :
    val_main_v3 (F := Ideal) x0 x3 x4 (ix2 0 n) = Cert.LstmSpec.xiRow x0 x3 x4 (ix2 0 n) := by
  rw [val_main_v3_apply, val_main_v1_apply, val_main_v2_apply]
  simp only [val_main_v0_apply, lidx1_at, ridx1_at, idx2_at, Ideal.addf_def]
  rfl

/-! ## The 16384-wide row of gate pre-activations -/

theorem lidx7_at (r : Fin 16384) (k : Fin 4096) : lidx_main_v7 (ix2 (0 : Fin 1) r) k = ix2 0 k :=
  funext fun a => Fin.ext (by match a with | ⟨0, _⟩ => rfl | ⟨1, _⟩ => rfl)

theorem ridx7_at (r : Fin 16384) (k : Fin 4096) : idx_main_v6 (ridx_main_v7 (ix2 (0 : Fin 1) r) k) = ix2 r k :=
  funext fun a => Fin.ext (by match a with | ⟨0, _⟩ => rfl | ⟨1, _⟩ => rfl)

theorem idx8_at (r : Fin 16384) : idx_main_v8 (ix2 (0 : Fin 1) r) = ix1 r :=
  funext fun a => Fin.ext (by match a with | ⟨0, _⟩ => rfl)

theorem lidx11_at (r : Fin 16384) (k : Fin 4096) : lidx_main_v11 (ix2 (0 : Fin 1) r) k = ix2 0 k :=
  funext fun a => Fin.ext (by match a with | ⟨0, _⟩ => rfl | ⟨1, _⟩ => rfl)

theorem ridx11_at (r : Fin 16384) (k : Fin 4096) : idx_main_v10 (ridx_main_v11 (ix2 (0 : Fin 1) r) k) = ix2 r k :=
  funext fun a => Fin.ext (by match a with | ⟨0, _⟩ => rfl | ⟨1, _⟩ => rfl)

theorem idx13_at (r : Fin 16384) : idx_main_v13 (ix2 (0 : Fin 1) r) = ix1 r :=
  funext fun a => Fin.ext (by match a with | ⟨0, _⟩ => rfl)

/-- Row 0, column k of the [1, 4096] re-layout of a [1, 1, 4096] array is its entry (0, 0, k): the flat position
    0 · 4096 + k is below 4096. -/
theorem idx4_at (k : Fin 4096) : idx_main_v4 (ix2 (0 : Fin 1) k) = ix3 0 0 k :=
  funext fun a => Fin.ext (by
    match a with
    | ⟨0, _⟩ => rfl
    | ⟨1, _⟩ => rfl
    | ⟨2, _⟩ => show (0 * 4096 + k.val) % 4096 = k.val; omega)

theorem idx5_at (k : Fin 4096) : idx_main_v5 (ix2 (0 : Fin 1) k) = ix3 0 0 k :=
  funext fun a => Fin.ext (by
    match a with
    | ⟨0, _⟩ => rfl
    | ⟨1, _⟩ => rfl
    | ⟨2, _⟩ => show (0 * 4096 + k.val) % 4096 = k.val; omega)

/-- Entry r of the pre-activation row, in the order the program adds its four terms. -/
theorem pre_at (r : Fin 16384) :
    val_main_v14 (F := Ideal) x0 x1 x3 x4 x5 x6 x7 x8 (ix2 0 r)
      = (((∑ κ : Fin 4096, Cert.LstmSpec.xiRow x0 x3 x4 (ix2 0 κ) * x5 (ix2 r κ)) + x7 (ix1 r))
          + (∑ κ : Fin 4096, x1 (ix3 0 0 κ) * x6 (ix2 r κ))) + x8 (ix1 r) := by
  rw [val_main_v14_apply, val_main_v12_apply, val_main_v9_apply, val_main_v7_apply, val_main_v8_apply,
    val_main_v11_apply, val_main_v13_apply]
  simp only [val_main_v6_apply, val_main_v10_apply, val_main_v4_apply, lidx7_at, ridx7_at, idx8_at, lidx11_at,
    ridx11_at, idx13_at, idx4_at, xi_at, Ideal.addf_def]

/-- Row g · 4096 + j of the pre-activation row is gate g's pre-activation at unit j. -/
theorem pre_gate (g : Fin 4) (j : Fin 4096) :
    val_main_v14 (F := Ideal) x0 x1 x3 x4 x5 x6 x7 x8 (ix2 0 (Cert.LstmSpec.stackedRow g j))
      = Cert.LstmSpec.gate (Cert.LstmSpec.xiRow x0 x3 x4) (Cert.LstmSpec.dropLead x1) (Cert.LstmSpec.blocks4 x5)
          (Cert.LstmSpec.blocks4 x6) (Cert.LstmSpec.blocks4v x7) (Cert.LstmSpec.blocks4v x8) g j := by
  rw [pre_at, Cert.LstmSpec.gate_sum_regroup]
  rfl

/-! ## The four slices are the four gates -/

theorem idx15_at (j : Fin 4096) : idx_main_v15 (ix2 (0 : Fin 1) j) = ix2 0 (Cert.LstmSpec.stackedRow 0 j) :=
  funext fun a => Fin.ext (by
    match a with
    | ⟨0, _⟩ => rfl
    | ⟨1, _⟩ => show j.val = 0 * 4096 + j.val; omega)

theorem idx16_at (j : Fin 4096) : idx_main_v16 (ix2 (0 : Fin 1) j) = ix2 0 (Cert.LstmSpec.stackedRow 1 j) :=
  funext fun a => Fin.ext (by
    match a with
    | ⟨0, _⟩ => rfl
    | ⟨1, _⟩ => show 4096 + j.val = 1 * 4096 + j.val; omega)

theorem idx17_at (j : Fin 4096) : idx_main_v17 (ix2 (0 : Fin 1) j) = ix2 0 (Cert.LstmSpec.stackedRow 2 j) :=
  funext fun a => Fin.ext (by
    match a with
    | ⟨0, _⟩ => rfl
    | ⟨1, _⟩ => show 8192 + j.val = 2 * 4096 + j.val; omega)

theorem idx18_at (j : Fin 4096) : idx_main_v18 (ix2 (0 : Fin 1) j) = ix2 0 (Cert.LstmSpec.stackedRow 3 j) :=
  funext fun a => Fin.ext (by
    match a with
    | ⟨0, _⟩ => rfl
    | ⟨1, _⟩ => show 12288 + j.val = 3 * 4096 + j.val; omega)

/-- Gate g's pre-activation at unit j, over the eleven original arrays. -/
abbrev gateAt (g : Fin 4) (j : Fin 4096) : EReal :=
  Cert.LstmSpec.gate (Cert.LstmSpec.xiRow x0 x3 x4) (Cert.LstmSpec.dropLead x1) (Cert.LstmSpec.blocks4 x5)
    (Cert.LstmSpec.blocks4 x6) (Cert.LstmSpec.blocks4v x7) (Cert.LstmSpec.blocks4v x8) g j

theorem slice0_at (j : Fin 4096) :
    val_main_v15 (F := Ideal) x0 x1 x3 x4 x5 x6 x7 x8 (ix2 0 j) = gateAt x0 x1 x3 x4 x5 x6 x7 x8 0 j := by
  rw [val_main_v15_apply, idx15_at, pre_gate]

theorem slice1_at (j : Fin 4096) :
    val_main_v16 (F := Ideal) x0 x1 x3 x4 x5 x6 x7 x8 (ix2 0 j) = gateAt x0 x1 x3 x4 x5 x6 x7 x8 1 j := by
  rw [val_main_v16_apply, idx16_at, pre_gate]

theorem slice2_at (j : Fin 4096) :
    val_main_v17 (F := Ideal) x0 x1 x3 x4 x5 x6 x7 x8 (ix2 0 j) = gateAt x0 x1 x3 x4 x5 x6 x7 x8 2 j := by
  rw [val_main_v17_apply, idx17_at, pre_gate]

theorem slice3_at (j : Fin 4096) :
    val_main_v18 (F := Ideal) x0 x1 x3 x4 x5 x6 x7 x8 (ix2 0 j) = gateAt x0 x1 x3 x4 x5 x6 x7 x8 3 j := by
  rw [val_main_v18_apply, idx18_at, pre_gate]

/-! ## The sigmoids, spelled 1 / (1 + e^(-t)) with the constant one broadcast from a scalar -/

/-- σ of the forget gate. -/
theorem sig1_at (j : Fin 4096) :
    val_main_v24 (F := Ideal) x0 x1 x3 x4 x5 x6 x7 x8 (ix2 0 j)
      = Ideal.logistic (gateAt x0 x1 x3 x4 x5 x6 x7 x8 1 j) := by
  rw [val_main_v24_apply, val_main_v23_apply, val_main_cst_0_apply, val_main_v22_apply, val_main_v21_apply,
    val_main_cst_apply, val_main_v20_apply, val_main_v19_apply, slice1_at]
  simp only [Ideal.hostDivf_def, Ideal.addf_def, Ideal.hostUnary_exp_def, Ideal.hostNegf_def, Ideal.negf_def,
    Ideal.ofBits_def, Ideal.ofBits_one_f32]
  exact Cert.LstmSpec.logistic_eq_div _

/-- σ of the input gate. -/
theorem sig0_at (j : Fin 4096) :
    val_main_v31 (F := Ideal) x0 x1 x3 x4 x5 x6 x7 x8 (ix2 0 j)
      = Ideal.logistic (gateAt x0 x1 x3 x4 x5 x6 x7 x8 0 j) := by
  rw [val_main_v31_apply, val_main_v30_apply, val_main_cst_2_apply, val_main_v29_apply, val_main_v28_apply,
    val_main_cst_1_apply, val_main_v27_apply, val_main_v26_apply, slice0_at]
  simp only [Ideal.hostDivf_def, Ideal.addf_def, Ideal.hostUnary_exp_def, Ideal.hostNegf_def, Ideal.negf_def,
    Ideal.ofBits_def, Ideal.ofBits_one_f32]
  exact Cert.LstmSpec.logistic_eq_div _

/-- σ of the output gate. -/
theorem sig3_at (j : Fin 4096) :
    val_main_v40 (F := Ideal) x0 x1 x3 x4 x5 x6 x7 x8 (ix2 0 j)
      = Ideal.logistic (gateAt x0 x1 x3 x4 x5 x6 x7 x8 3 j) := by
  rw [val_main_v40_apply, val_main_v39_apply, val_main_cst_4_apply, val_main_v38_apply, val_main_v37_apply,
    val_main_cst_3_apply, val_main_v36_apply, val_main_v35_apply, slice3_at]
  simp only [Ideal.hostDivf_def, Ideal.addf_def, Ideal.hostUnary_exp_def, Ideal.hostNegf_def, Ideal.negf_def,
    Ideal.ofBits_def, Ideal.ofBits_one_f32]
  exact Cert.LstmSpec.logistic_eq_div _

/-! ## The cell row, the hidden row, the output projection -/

theorem cell_at (j : Fin 4096) :
    val_main_v34 (F := Ideal) x0 x1 x2 x3 x4 x5 x6 x7 x8 (ix2 0 j)
      = Cert.LstmSpec.cellRow x0 x1 x2 x3 x4 x5 x6 x7 x8 (ix2 0 j) := by
  rw [val_main_v34_apply, val_main_v25_apply, val_main_v33_apply, val_main_v32_apply, val_main_v5_apply, sig1_at,
    sig0_at, slice2_at, idx5_at]
  simp only [Ideal.addf_def, Ideal.mulf_def, Ideal.hostUnary_tanh_def]
  rfl

theorem hidden_at (j : Fin 4096) :
    val_main_v42 (F := Ideal) x0 x1 x2 x3 x4 x5 x6 x7 x8 (ix2 0 j)
      = Cert.LstmSpec.hiddenRow x0 x1 x2 x3 x4 x5 x6 x7 x8 (ix2 0 j) := by
  rw [val_main_v42_apply, val_main_v41_apply, sig3_at, cell_at]
  simp only [Ideal.mulf_def, Ideal.hostUnary_tanh_def]
  rfl

theorem lidx44_at (e : Fin 1024) (k : Fin 4096) : lidx_main_v44 (ix2 (0 : Fin 1) e) k = ix2 0 k :=
  funext fun a => Fin.ext (by match a with | ⟨0, _⟩ => rfl | ⟨1, _⟩ => rfl)

theorem ridx44_at (e : Fin 1024) (k : Fin 4096) : idx_main_v43 (ridx_main_v44 (ix2 (0 : Fin 1) e) k) = ix2 e k :=
  funext fun a => Fin.ext (by match a with | ⟨0, _⟩ => rfl | ⟨1, _⟩ => rfl)

theorem idx45_at (e : Fin 1024) : idx_main_v45 (ix2 (0 : Fin 1) e) = ix1 e :=
  funext fun a => Fin.ext (by match a with | ⟨0, _⟩ => rfl)

theorem out_at (e : Fin 1024) :
    val_main_v46 (F := Ideal) x0 x1 x2 x3 x4 x5 x6 x7 x8 x9 x10 (ix2 0 e)
      = Cert.LstmSpec.outRow x0 x1 x2 x3 x4 x5 x6 x7 x8 x9 x10 (ix2 0 e) := by
  rw [val_main_v46_apply, val_main_v44_apply, val_main_v45_apply]
  simp only [val_main_v43_apply, lidx44_at, ridx44_at, idx45_at, hidden_at, Ideal.addf_def]
  rfl

theorem idx47_at (a b : Fin 1) (c : Fin 4096) : idx_main_v47 (ix3 a b c) = ix2 0 c :=
  funext fun a => Fin.ext (by match a with | ⟨0, _⟩ => rfl | ⟨1, _⟩ => rfl)

theorem idx48_at (a b : Fin 1) (c : Fin 4096) : idx_main_v48 (ix3 a b c) = ix2 0 c :=
  funext fun a => Fin.ext (by match a with | ⟨0, _⟩ => rfl | ⟨1, _⟩ => rfl)

/-- The reference's first result is the step's output projection. -/
theorem ref_out : val_main_v46 (F := Ideal) x0 x1 x2 x3 x4 x5 x6 x7 x8 x9 x10 = Cert.LstmSpec.outRow x0 x1 x2 x3 x4 x5 x6 x7 x8 x9 x10 := by
  funext i
  obtain ⟨p, q, rfl⟩ : ∃ (p : Fin 1) (q : Fin 1024), i = ix2 p q := ⟨i 0, i 1, eq_ix2 i⟩
  obtain rfl : p = 0 := Subsingleton.elim _ _
  exact out_at x0 x1 x2 x3 x4 x5 x6 x7 x8 x9 x10 q

/-- The reference's second result is the step's new hidden state. -/
theorem ref_hidden : val_main_v47 (F := Ideal) x0 x1 x2 x3 x4 x5 x6 x7 x8 = Cert.LstmSpec.hiddenOut x0 x1 x2 x3 x4 x5 x6 x7 x8 := by
  funext i
  obtain ⟨a, b, c, rfl⟩ : ∃ (a b : Fin 1) (c : Fin 4096), i = ix3 a b c := ⟨i 0, i 1, i 2, eq_ix3 i⟩
  rw [val_main_v47_apply, idx47_at, hidden_at]
  rfl

/-- The reference's third result is the step's new cell state. -/
theorem ref_cell : val_main_v48 (F := Ideal) x0 x1 x2 x3 x4 x5 x6 x7 x8 = Cert.LstmSpec.cellOut x0 x1 x2 x3 x4 x5 x6 x7 x8 := by
  funext i
  obtain ⟨a, b, c, rfl⟩ : ∃ (a b : Fin 1) (c : Fin 4096), i = ix3 a b c := ⟨i 0, i 1, i 2, eq_ix3 i⟩
  rw [val_main_v48_apply, idx48_at, cell_at]
  rfl

end Cert.ReferenceIdeal.StepValue

end
-- ==== Proof.lean ====
/-
  A single LSTM step between two dense layers, computed by three pipelined launches, against the same step written
  with plain array operations.

  The kernel program projects the input row (four blocks of 1024 columns), updates the cell (thirty-two blocks of 128
  units, all four gates of a block from the matching 128 rows of each of the four weight blocks) and projects the new
  hidden row (four blocks of 256 columns); the reference forms all 16384 gate pre-activations as one row and slices
  it. Over the extended reals, where a change of float format is the identity and a matrix product is the exact sum
  over the contracted index, both compute

    ξ = x · W_inᵀ + b_in,   a_g = (ξ · W_ih,gᵀ + h · W_hh,gᵀ) + (b_ih,g + b_hh,g),
    c' = σ(a_1) · c + σ(a_0) · tanh(a_2),   h' = σ(a_3) · tanh(c'),   out = h' · W_outᵀ + b_out.

  Two things differ in the text and not in the value: the reference spells σ(t) as 1 / (1 + e^(-t)), which is σ; and it
  adds b_ih before the second product and b_hh last, which is the same extended real because addition there is
  associative and commutative (no finiteness is used anywhere). The blocks of each launch tile its output row, so each
  output array is one whole-row function of the arrays the launch reads; the reshapes between the launches move no
  element.

  The three frames are the programs' runs with the results forgotten. The idealization rewrote nothing, so its
  statement is trivial.
-/
import proofs.«142130_j22763326668968_1_alg».proof.Defs
import proofs.«142130_j22763326668968_1_alg».proof.Proof.Gen.Kernel
import proofs.«142130_j22763326668968_1_alg».proof.Proof.Gen.Kernel.Skeleton
import proofs.«142130_j22763326668968_1_alg».proof.Proof.Gen.Kernel.Launch
import proofs.«142130_j22763326668968_1_alg».proof.Proof.Gen.Kernel.Points
import proofs.«142130_j22763326668968_1_alg».proof.Proof.Gen.Kernel.Frame
import proofs.«142130_j22763326668968_1_alg».proof.Proof.Gen.KernelIdeal
import proofs.«142130_j22763326668968_1_alg».proof.Proof.Gen.KernelIdeal.Skeleton
import proofs.«142130_j22763326668968_1_alg».proof.Proof.Gen.KernelIdeal.Launch
import proofs.«142130_j22763326668968_1_alg».proof.Proof.Gen.KernelIdeal.Points
import proofs.«142130_j22763326668968_1_alg».proof.Proof.Gen.KernelIdeal.Frame
import proofs.«142130_j22763326668968_1_alg».proof.Proof.Gen.ReferenceIdeal
import proofs.«142130_j22763326668968_1_alg».proof.Proof.Gen.ReferenceIdeal.Run
import proofs.«142130_j22763326668968_1_alg».proof.Proof.Gen.ReferenceIdeal.Read
import proofs.«142130_j22763326668968_1_alg».proof.Proof.Gen.Pre_finite_inputs
import proofs.«142130_j22763326668968_1_alg».proof.Proof.KernelRun
import proofs.«142130_j22763326668968_1_alg».proof.Proof.KernelValue
import proofs.«142130_j22763326668968_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs, nothing faulting, its arguments unchanged. -/
theorem frame_kernel : Cert.frame_Kernel := fun m ρ _ => Cert.Kernel.Gen.frame m ρ

/-- The idealized kernel program likewise. -/
theorem frame_kernel_ideal : Cert.frame_KernelIdeal := fun m ρ _ => Cert.KernelIdeal.Gen.frame m ρ

/-- The reference's frame is its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the eleven arguments both programs end with the step's output row, new hidden state
    and new cell state of those arguments: the kernel program by its launch read back through the three stages, the
    reference by its run read one operation at a time. -/
theorem algebraic : Cert.algebraic_KernelIdeal_ReferenceIdeal := by
  intro m ρ m' ρ' _ hagree
  refine ⟨fun c => Cert.LstmSpec.outRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.LstmSpec.hiddenOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.LstmSpec.cellOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.StepRun.run_named (F := Ideal) m ρ)
    obtain ⟨hout, hhid, hcell, hargs⟩ := h c
    exact ⟨hout.trans (Cert.KernelIdeal.StepValue.out_value m ρ c),
      hhid.trans (Cert.KernelIdeal.StepValue.hidden_value m ρ c),
      hcell.trans (Cert.KernelIdeal.StepValue.cell_value m ρ c), hargs⟩
  · refine (θ_run Cert.ReferenceIdeal.defs _ _).mono (fun r h c => ?_) (Cert.ReferenceIdeal.Value.run (F := Ideal) m' ρ')
    obtain ⟨hout, hhid, hcell, hargs⟩ := h c
    obtain ⟨a0, a1, a2, a3, a4, a5, a6, a7, a8, a9, a10⟩ := hagree c
    refine ⟨?_, ?_, ?_, hargs⟩
    · rw [hout, Cert.ReferenceIdeal.Read.val_main_v46_eq, Cert.ReferenceIdeal.StepValue.ref_out, a0, a1, a2, a3, a4, a5, a6, a7, a8, a9, a10]
    · rw [hhid, Cert.ReferenceIdeal.Read.val_main_v47_eq, Cert.ReferenceIdeal.StepValue.ref_hidden, a0, a1, a2, a3, a4, a5, a6, a7, a8]
    · rw [hcell, Cert.ReferenceIdeal.Read.val_main_v48_eq, Cert.ReferenceIdeal.StepValue.ref_cell, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
